-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x96 : Shape := ⟨3, ![4096, 49, 96]⟩
abbrev S64x49x49 : Shape := ⟨3, ![64, 49, 49]⟩
abbrev S288x96 : Shape := ⟨2, ![288, 96]⟩
abbrev S288 : Shape := ⟨1, ![288]⟩
abbrev S96x96 : Shape := ⟨2, ![96, 96]⟩
abbrev S96 : Shape := ⟨1, ![96]⟩
abbrev S_ : Shape := ⟨0, ![]⟩

class Facts : Prop where
  bcast_S_S4096x49x96 : S_.BroadcastsInDim S4096x49x96 (![] : Fin 0 → Fin S4096x49x96.rank)
  reducesTo_S4096x49x96_S_d0_1_2 : S4096x49x96.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S288x96 : S_.BroadcastsInDim S288x96 (![] : Fin 0 → Fin S288x96.rank)
  reducesTo_S288x96_S_d0_1 : S288x96.ReducesTo [0, 1] S_
  bcast_S_S288 : S_.BroadcastsInDim S288 (![] : Fin 0 → Fin S288.rank)
  reducesTo_S288_S_d0 : S288.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x96 .f32) (main_arg5 : FVec F S96 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S4096x49x96 .f32) (main_arg1 : FVec F S64x49x49 .f32) (main_arg2 : FVec F S288x96 .f32) (main_arg3 : FVec F S288 .f32) (main_arg4 : FVec F S96x96 .f32) (main_arg5 : FVec F S96 .f32) : IVec S_ 1 :=
  let main_v0 : FVec F S4096x49x96 .f32 := Host.absf main_arg0
  let main_cst : FVec F S_ .f32 := constant S_ .f32 0x7F800000#32
  let main_v1 : FVec F S4096x49x96 .f32 := broadcastInDim S4096x49x96 ![] bcast_S_S4096x49x96 main_cst
  let main_v2 : IVec S4096x49x96 1 := cmpf .olt main_v0 main_v1
  let main_c : IVec S_ 1 := constantI S_ 1 1#1
  let main_v3 : IVec S_ 1 := (fun x v => Host.reduce IntOp.andi x v reducesTo_S4096x49x96_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S288x96 .f32 := Host.absf main_arg2
  let main_cst_2 : FVec F S_ .f32 := constant S_ .f32 0x7F800000#32
  let main_v10 : FVec F S288x96 .f32 := broadcastInDim S288x96 ![] bcast_S_S288x96 main_cst_2
  let main_v11 : IVec S288x96 1 := cmpf .olt main_v9 main_v10
  let main_c_3 : IVec S_ 1 := constantI S_ 1 1#1
  let main_v12 : IVec S_ 1 := (fun x v => Host.reduce IntOp.andi x v reducesTo_S288x96_S_d0_1 h_S_) main_v11 main_c_3
  let main_v13 : IVec S_ 1 := andi main_v8 main_v12
  let main_v14 : FVec F S288 .f32 := Host.absf main_arg3
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg4 main_arg5 main_v13 main_v16
-- ==== Kernel.lean ====
abbrev S4096x49x96 : Shape := ⟨3, ![4096, 49, 96]⟩
abbrev S64x49x49 : Shape := ⟨3, ![64, 49, 49]⟩
abbrev S288x96 : Shape := ⟨2, ![288, 96]⟩
abbrev S288 : Shape := ⟨1, ![288]⟩
abbrev S96x96 : Shape := ⟨2, ![96, 96]⟩
abbrev S96 : Shape := ⟨1, ![96]⟩
abbrev S1x288x96 : Shape := ⟨3, ![1, 288, 96]⟩
abbrev S64x288x96 : Shape := ⟨3, ![64, 288, 96]⟩
abbrev S1x96x96 : Shape := ⟨3, ![1, 96, 96]⟩
abbrev S64x96x96 : Shape := ⟨3, ![64, 96, 96]⟩
abbrev S1x288 : Shape := ⟨2, ![1, 288]⟩
abbrev S1x96 : Shape := ⟨2, ![1, 96]⟩
abbrev S64x49x96 : Shape := ⟨3, ![64, 49, 96]⟩
abbrev S64x49x288 : Shape := ⟨3, ![64, 49, 288]⟩
abbrev S1x1x288 : Shape := ⟨3, ![1, 1, 288]⟩
abbrev S64x49x32 : Shape := ⟨3, ![64, 49, 32]⟩
abbrev S64x49 : Shape := ⟨2, ![64, 49]⟩
abbrev S64x49x1 : Shape := ⟨3, ![64, 49, 1]⟩
abbrev S1x1x96 : Shape := ⟨3, ![1, 1, 96]⟩

abbrev nBuf : Space → Nat
  | .hbm => 15
  | .vmem => 9
  | .smem => 0
  | _ => 0

abbrev bufTy : (tb : Table) → Fin (tcTables nBuf tb) → BufTy
  | .hbm, ⟨0, _⟩ => ⟨S4096x49x96, .f32⟩
  | .hbm, ⟨1, _⟩ => ⟨S64x49x49, .f32⟩
  | .hbm, ⟨2, _⟩ => ⟨S288x96, .f32⟩
  | .hbm, ⟨3, _⟩ => ⟨S288, .f32⟩
  | .hbm, ⟨4, _⟩ => ⟨S96x96, .f32⟩
  | .hbm, ⟨5, _⟩ => ⟨S96, .f32⟩
  | .hbm, ⟨6, _⟩ => ⟨S288x96, .bf16⟩
  | .hbm, ⟨7, _⟩ => ⟨S1x288x96, .bf16⟩
  | .hbm, ⟨8, _⟩ => ⟨S64x288x96, .bf16⟩
  | .hbm, ⟨9, _⟩ => ⟨S96x96, .bf16⟩
  | .hbm, ⟨10, _⟩ => ⟨S1x96x96, .bf16⟩
  | .hbm, ⟨11, _⟩ => ⟨S64x96x96, .bf16⟩
  | .hbm, ⟨12, _⟩ => ⟨S1x288, .f32⟩
  | .hbm, ⟨13, _⟩ => ⟨S1x96, .f32⟩
  | .hbm, ⟨14, _⟩ => ⟨S4096x49x96, .f32⟩
  | .local _ .vmem, ⟨0, _⟩ => ⟨S64x49x96, .f32⟩
  | .local _ .vmem, ⟨1, _⟩ => ⟨S64x49x96, .f32⟩
  | .local _ .vmem, ⟨2, _⟩ => ⟨S64x49x49, .f32⟩
  | .local _ .vmem, ⟨3, _⟩ => ⟨S64x288x96, .bf16⟩
  | .local _ .vmem, ⟨4, _⟩ => ⟨S1x288, .f32⟩
  | .local _ .vmem, ⟨5, _⟩ => ⟨S64x96x96, .bf16⟩
  | .local _ .vmem, ⟨6, _⟩ => ⟨S1x96, .f32⟩
  | .local _ .vmem, ⟨7, _⟩ => ⟨S64x49x96, .f32⟩
  | .local _ .vmem, ⟨8, _⟩ => ⟨S64x49x96, .f32⟩
  | _, _ => ⟨S4096x49x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x49x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x49x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x288x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x49x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S288x96_S1x288x96_1_2 : S288x96.BroadcastsInDim S1x288x96 (![1, 2] : Fin 2 → Fin S1x288x96.rank)
  bcast_S1x288x96_S64x288x96_0_1_2 : S1x288x96.BroadcastsInDim S64x288x96 (![0, 1, 2] : Fin 3 → Fin S64x288x96.rank)
  bcast_S96x96_S1x96x96_1_2 : S96x96.BroadcastsInDim S1x96x96 (![1, 2] : Fin 2 → Fin S1x96x96.rank)
  bcast_S1x96x96_S64x96x96_0_1_2 : S1x96x96.BroadcastsInDim S64x96x96 (![0, 1, 2] : Fin 3 → Fin S64x96x96.rank)
  shapeCasts_S288_S1x288 : S288.ShapeCasts S1x288
  shapeCasts_S96_S1x96 : S96.ShapeCasts S1x96
  inb_S64x49x96_S64x49x96_0_0_0 : ∀ a, (![0, 0, 0] : Fin 3 → Nat) a + S64x49x96.size a ≤ S64x49x96.size a
  h_S64x49x96 : 0 < S64x49x96.numel
  inb_S64x288x96_S64x288x96_0_0_0 : ∀ a, (![0, 0, 0] : Fin 3 → Nat) a + S64x288x96.size a ≤ S64x288x96.size a
  h_S64x288x96 : 0 < S64x288x96.numel
  shapeCasts_S64x288x96_S64x288x96 : S64x288x96.ShapeCasts S64x288x96
  inb_S1x288_S1x288_0_0 : ∀ a, (![0, 0] : Fin 2 → Nat) a + S1x288.size a ≤ S1x288.size a
  h_S1x288 : 0 < S1x288.numel
  shapeCasts_S1x288_S1x288 : S1x288.ShapeCasts S1x288
  shapeCasts_S1x288_S1x1x288 : S1x288.ShapeCasts S1x1x288
  broadcasts_S1x1x288_S64x49x288 : S1x1x288.Broadcasts S64x49x288
  inb_S64x49x49_S64x49x49_0_0_0 : ∀ a, (![0, 0, 0] : Fin 3 → Nat) a + S64x49x49.size a ≤ S64x49x49.size a
  h_S64x49x49 : 0 < S64x49x49.numel
  slices_S64x49x288_o0_0_0_S64x49x32 : S64x49x288.Slices ![0, 0, 0] S64x49x32
  slices_S64x49x288_o0_0_96_S64x49x32 : S64x49x288.Slices ![0, 0, 96] S64x49x32
  slices_S64x49x288_o0_0_192_S64x49x32 : S64x49x288.Slices ![0, 0, 192] S64x49x32
  reduces_S64x49x49_S64x49 : S64x49x49.Reduces [2] S64x49
  shapeCasts_S64x49_S64x49x1 : S64x49.ShapeCasts S64x49x1
  broadcasts_S64x49x1_S64x49x49 : S64x49x1.Broadcasts S64x49x49
  slices_S64x49x288_o0_0_32_S64x49x32 : S64x49x288.Slices ![0, 0, 32] S64x49x32
  slices_S64x49x288_o0_0_128_S64x49x32 : S64x49x288.Slices ![0, 0, 128] S64x49x32
  slices_S64x49x288_o0_0_224_S64x49x32 : S64x49x288.Slices ![0, 0, 224] S64x49x32
  slices_S64x49x288_o0_0_64_S64x49x32 : S64x49x288.Slices ![0, 0, 64] S64x49x32
  slices_S64x49x288_o0_0_160_S64x49x32 : S64x49x288.Slices ![0, 0, 160] S64x49x32
  slices_S64x49x288_o0_0_256_S64x49x32 : S64x49x288.Slices ![0, 0, 256] S64x49x32
  concatenates_S64x49x32_S64x49x32_S64x49x32_S64x49x96_d2 : Shape.Concatenates [S64x49x32, S64x49x32, S64x49x32] S64x49x96 2
  inb_S64x96x96_S64x96x96_0_0_0 : ∀ a, (![0, 0, 0] : Fin 3 → Nat) a + S64x96x96.size a ≤ S64x96x96.size a
  h_S64x96x96 : 0 < S64x96x96.numel
  shapeCasts_S64x96x96_S64x96x96 : S64x96x96.ShapeCasts S64x96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S1x96_S1x1x96 : S1x96.ShapeCasts S1x1x96
  broadcasts_S1x1x96_S64x49x96 : S1x1x96.Broadcasts S64x49x96
  dot_S64x49x96_S64x288x96_S64x49x288_2_2_1_1_0_0_wf : DotDims.WF S64x49x96 S64x288x96 S64x49x288 [2] [2] [1] [1] [0] [0]
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  dot_S64x49x96_S64x96x96_S64x49x96_2_2_1_1_0_0_wf : DotDims.WF S64x49x96 S64x96x96 S64x49x96 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x96.size a ≤ S4096x49x96.size a
  hwx0_0 : ∀ i : grid0.Coords, EltTy.bits .f32 = 32 ∨ (Rect.block (s := S4096x49x96) S64x49x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x49x49.size a ≤ S64x49x49.size a
  hwx0_1 : ∀ i : grid0.Coords, EltTy.bits .f32 = 32 ∨ (Rect.block (s := S64x49x49) S64x49x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x288x96.size a ≤ S64x288x96.size a
  hwx0_2 : ∀ i : grid0.Coords, EltTy.bits .bf16 = 32 ∨ (Rect.block (s := S64x288x96) S64x288x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x96x96.size a ≤ S64x96x96.size a
  hwx0_4 : ∀ i : grid0.Coords, EltTy.bits .bf16 = 32 ∨ (Rect.block (s := S64x96x96) S64x96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x49x96.size a ≤ S4096x49x96.size a
  hwx0_6 : ∀ i : grid0.Coords, EltTy.bits .f32 = 32 ∨ (Rect.block (s := S4096x49x96) S64x49x96.size (cc0_transform_6 i) (hinb0_6 i)).WholeWords (EltTy.packing .f32)

variable [Facts₀]

def dot_S64x49x96_S64x288x96_S64x49x288_2_2_1_1_0_0 : DotDims S64x49x96 S64x288x96 S64x49x288 where
  lhsContracting := [2]
  rhsContracting := [2]
  lhsNonContracting := [1]
  rhsNonContracting := [1]
  lhsBatch := [0]
  rhsBatch := [0]
  wf := dot_S64x49x96_S64x288x96_S64x49x288_2_2_1_1_0_0_wf
def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf
def dot_S64x49x96_S64x96x96_S64x49x96_2_2_1_1_0_0 : DotDims S64x49x96 S64x96x96 S64x49x96 where
  lhsContracting := [2]
  rhsContracting := [2]
  lhsNonContracting := [1]
  rhsNonContracting := [1]
  lhsBatch := [0]
  rhsBatch := [0]
  wf := dot_S64x49x96_S64x96x96_S64x49x96_2_2_1_1_0_0_wf

abbrev win0_0 : Pipeline.Window sig grid0 :=
  Pipeline.Window.ofSpec (Memref.whole main_arg0) S64x49x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x49x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x288x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x49x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x49x96 : Shape := ⟨3, ![4096, 49, 96]⟩
abbrev S64x49x49 : Shape := ⟨3, ![64, 49, 49]⟩
abbrev S288x96 : Shape := ⟨2, ![288, 96]⟩
abbrev S288 : Shape := ⟨1, ![288]⟩
abbrev S96x96 : Shape := ⟨2, ![96, 96]⟩
abbrev S96 : Shape := ⟨1, ![96]⟩
abbrev S4096x49x288 : Shape := ⟨3, ![4096, 49, 288]⟩
abbrev S1x1x288 : Shape := ⟨3, ![1, 1, 288]⟩
abbrev S4096x49x3x3x32 : Shape := ⟨5, ![4096, 49, 3, 3, 32]⟩
abbrev S3x4096x3x49x32 : Shape := ⟨5, ![3, 4096, 3, 49, 32]⟩
abbrev S1x4096x3x49x32 : Shape := ⟨5, ![1, 4096, 3, 49, 32]⟩
abbrev S4096x3x49x32 : Shape := ⟨4, ![4096, 3, 49, 32]⟩
abbrev S_ : Shape := ⟨0, ![]⟩
abbrev S4096x3x49x49 : Shape := ⟨4, ![4096, 3, 49, 49]⟩
abbrev S64x64x3x49x49 : Shape := ⟨5, ![64, 64, 3, 49, 49]⟩
abbrev S1x64x1x49x49 : Shape := ⟨5, ![1, 64, 1, 49, 49]⟩
abbrev S4096x3x49 : Shape := ⟨3, ![4096, 3, 49]⟩
abbrev S4096x3x49x1 : Shape := ⟨4, ![4096, 3, 49, 1]⟩
abbrev S4096x49x3x32 : Shape := ⟨4, ![4096, 49, 3, 32]⟩
abbrev S1x1x96 : Shape := ⟨3, ![1, 1, 96]⟩

abbrev nBuf : Space → Nat
  | .hbm => 48
  | .vmem => 0
  | .smem => 0
  | _ => 0

abbrev bufTy : (tb : Table) → Fin (tcTables nBuf tb) → BufTy
  | .hbm, ⟨0, _⟩ => ⟨S4096x49x96, .f32⟩
  | .hbm, ⟨1, _⟩ => ⟨S64x49x49, .f32⟩
  | .hbm, ⟨2, _⟩ => ⟨S288x96, .f32⟩
  | .hbm, ⟨3, _⟩ => ⟨S288, .f32⟩
  | .hbm, ⟨4, _⟩ => ⟨S96x96, .f32⟩
  | .hbm, ⟨5, _⟩ => ⟨S96, .f32⟩
  | .hbm, ⟨6, _⟩ => ⟨S4096x49x288, .f32⟩
  | .hbm, ⟨7, _⟩ => ⟨S1x1x288, .f32⟩
  | .hbm, ⟨8, _⟩ => ⟨S4096x49x288, .f32⟩
  | .hbm, ⟨9, _⟩ => ⟨S4096x49x288, .f32⟩
  | .hbm, ⟨10, _⟩ => ⟨S4096x49x3x3x32, .f32⟩
  | .hbm, ⟨11, _⟩ => ⟨S3x4096x3x49x32, .f32⟩
  | .hbm, ⟨12, _⟩ => ⟨S1x4096x3x49x32, .f32⟩
  | .hbm, ⟨13, _⟩ => ⟨S4096x3x49x32, .f32⟩
  | .hbm, ⟨14, _⟩ => ⟨S1x4096x3x49x32, .f32⟩
  | .hbm, ⟨15, _⟩ => ⟨S4096x3x49x32, .f32⟩
  | .hbm, ⟨16, _⟩ => ⟨S1x4096x3x49x32, .f32⟩
  | .hbm, ⟨17, _⟩ => ⟨S4096x3x49x32, .f32⟩
  | .hbm, ⟨18, _⟩ => ⟨S_, .f32⟩
  | .hbm, ⟨19, _⟩ => ⟨S4096x3x49x32, .f32⟩
  | .hbm, ⟨20, _⟩ => ⟨S4096x3x49x32, .f32⟩
  | .hbm, ⟨21, _⟩ => ⟨S4096x3x49x49, .f32⟩
  | .hbm, ⟨22, _⟩ => ⟨S64x64x3x49x49, .f32⟩
  | .hbm, ⟨23, _⟩ => ⟨S1x64x1x49x49, .f32⟩
  | .hbm, ⟨24, _⟩ => ⟨S64x64x3x49x49, .f32⟩
  | .hbm, ⟨25, _⟩ => ⟨S64x64x3x49x49, .f32⟩
  | .hbm, ⟨26, _⟩ => ⟨S4096x3x49x49, .f32⟩
  | .hbm, ⟨27, _⟩ => ⟨S_, .f32⟩
  | .hbm, ⟨28, _⟩ => ⟨S4096x3x49, .f32⟩
  | .hbm, ⟨29, _⟩ => ⟨S_, .f32⟩
  | .hbm, ⟨30, _⟩ => ⟨S4096x3x49, .f32⟩
  | .hbm, ⟨31, _⟩ => ⟨S4096x3x49, .f32⟩
  | .hbm, ⟨32, _⟩ => ⟨S4096x3x49x1, .f32⟩
  | .hbm, ⟨33, _⟩ => ⟨S4096x3x49x49, .f32⟩
  | .hbm, ⟨34, _⟩ => ⟨S4096x3x49x49, .f32⟩
  | .hbm, ⟨35, _⟩ => ⟨S4096x3x49x49, .f32⟩
  | .hbm, ⟨36, _⟩ => ⟨S_, .f32⟩
  | .hbm, ⟨37, _⟩ => ⟨S4096x3x49, .f32⟩
  | .hbm, ⟨38, _⟩ => ⟨S4096x3x49x1, .f32⟩
  | .hbm, ⟨39, _⟩ => ⟨S4096x3x49x49, .f32⟩
  | .hbm, ⟨40, _⟩ => ⟨S4096x3x49x49, .f32⟩
  | .hbm, ⟨41, _⟩ => ⟨S4096x3x49x32, .f32⟩
  | .hbm, ⟨42, _⟩ => ⟨S4096x49x3x32, .f32⟩
  | .hbm, ⟨43, _⟩ => ⟨S4096x49x96, .f32⟩
  | .hbm, ⟨44, _⟩ => ⟨S4096x49x96, .f32⟩
  | .hbm, ⟨45, _⟩ => ⟨S1x1x96, .f32⟩
  | .hbm, ⟨46, _⟩ => ⟨S4096x49x96, .f32⟩
  | .hbm, ⟨47, _⟩ => ⟨S4096x49x96, .f32⟩
  | _, _ => ⟨S4096x49x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S288_S1x1x288_2 : S288.BroadcastsInDim S1x1x288 (![2] : Fin 1 → Fin S1x1x288.rank)
  bcast_S1x1x288_S4096x49x288_0_1_2 : S1x1x288.BroadcastsInDim S4096x49x288 (![0, 1, 2] : Fin 3 → Fin S4096x49x288.rank)
  shapeCasts_S4096x49x288_S4096x49x3x3x32 : S4096x49x288.ShapeCasts S4096x49x3x3x32
  transposes_S4096x49x3x3x32_S3x4096x3x49x32_2_0_3_1_4 : S4096x49x3x3x32.Transposes [2, 0, 3, 1, 4] S3x4096x3x49x32
  slices_S3x4096x3x49x32_S1x4096x3x49x32_0_0_0_0_0 : S3x4096x3x49x32.Slices ![0, 0, 0, 0, 0] S1x4096x3x49x32
  shapeCasts_S1x4096x3x49x32_S4096x3x49x32 : S1x4096x3x49x32.ShapeCasts S4096x3x49x32
  slices_S3x4096x3x49x32_S1x4096x3x49x32_1_0_0_0_0 : S3x4096x3x49x32.Slices ![1, 0, 0, 0, 0] S1x4096x3x49x32
  slices_S3x4096x3x49x32_S1x4096x3x49x32_2_0_0_0_0 : S3x4096x3x49x32.Slices ![2, 0, 0, 0, 0] S1x4096x3x49x32
  bcast_S_S4096x3x49x32 : S_.BroadcastsInDim S4096x3x49x32 (![] : Fin 0 → Fin S4096x3x49x32.rank)
  shapeCasts_S4096x3x49x49_S64x64x3x49x49 : S4096x3x49x49.ShapeCasts S64x64x3x49x49
  bcast_S64x49x49_S1x64x1x49x49_1_3_4 : S64x49x49.BroadcastsInDim S1x64x1x49x49 (![1, 3, 4] : Fin 3 → Fin S1x64x1x49x49.rank)
  bcast_S1x64x1x49x49_S64x64x3x49x49_0_1_2_3_4 : S1x64x1x49x49.BroadcastsInDim S64x64x3x49x49 (![0, 1, 2, 3, 4] : Fin 5 → Fin S64x64x3x49x49.rank)
  shapeCasts_S64x64x3x49x49_S4096x3x49x49 : S64x64x3x49x49.ShapeCasts S4096x3x49x49
  reducesTo_S4096x3x49x49_S4096x3x49_d3 : S4096x3x49x49.ReducesTo [3] S4096x3x49
  h_S_ : 0 < S_.numel
  bcast_S_S4096x3x49 : S_.BroadcastsInDim S4096x3x49 (![] : Fin 0 → Fin S4096x3x49.rank)
  bcast_S4096x3x49_S4096x3x49x1_0_1_2 : S4096x3x49.BroadcastsInDim S4096x3x49x1 (![0, 1, 2] : Fin 3 → Fin S4096x3x49x1.rank)
  bcast_S4096x3x49x1_S4096x3x49x49_0_1_2_3 : S4096x3x49x1.BroadcastsInDim S4096x3x49x49 (![0, 1, 2, 3] : Fin 4 → Fin S4096x3x49x49.rank)
  transposes_S4096x3x49x32_S4096x49x3x32_0_2_1_3 : S4096x3x49x32.Transposes [0, 2, 1, 3] S4096x49x3x32
  shapeCasts_S4096x49x3x32_S4096x49x96 : S4096x49x3x32.ShapeCasts S4096x49x96
  bcast_S96_S1x1x96_2 : S96.BroadcastsInDim S1x1x96 (![2] : Fin 1 → Fin S1x1x96.rank)
  bcast_S1x1x96_S4096x49x96_0_1_2 : S1x1x96.BroadcastsInDim S4096x49x96 (![0, 1, 2] : Fin 3 → Fin S4096x49x96.rank)
  dot_S4096x49x96_S288x96_S4096x49x288_2_1_01_0_n_n_wf : DotDims.WF S4096x49x96 S288x96 S4096x49x288 [2] [1] [0, 1] [0] [] []
  dot_S4096x3x49x32_S4096x3x49x32_S4096x3x49x49_3_3_2_2_01_01_wf : DotDims.WF S4096x3x49x32 S4096x3x49x32 S4096x3x49x49 [3] [3] [2] [2] [0, 1] [0, 1]
  dot_S4096x3x49x49_S4096x3x49x32_S4096x3x49x32_3_2_2_3_01_01_wf : DotDims.WF S4096x3x49x49 S4096x3x49x32 S4096x3x49x32 [3] [2] [2] [3] [0, 1] [0, 1]
  dot_S4096x49x96_S96x96_S4096x49x96_2_1_01_0_n_n_wf : DotDims.WF S4096x49x96 S96x96 S4096x49x96 [2] [1] [0, 1] [0] [] []

variable [Facts₀]

def dot_S4096x49x96_S288x96_S4096x49x288_2_1_01_0_n_n : DotDims S4096x49x96 S288x96 S4096x49x288 where
  lhsContracting := [2]
  rhsContracting := [1]
  lhsNonContracting := [0, 1]
  rhsNonContracting := [0]
  lhsBatch := []
  rhsBatch := []
  wf := dot_S4096x49x96_S288x96_S4096x49x288_2_1_01_0_n_n_wf
def dot_S4096x3x49x32_S4096x3x49x32_S4096x3x49x49_3_3_2_2_01_01 : DotDims S4096x3x49x32 S4096x3x49x32 S4096x3x49x49 where
  lhsContracting := [3]
  rhsContracting := [3]
  lhsNonContracting := [2]
  rhsNonContracting := [2]
  lhsBatch := [0, 1]
  rhsBatch := [0, 1]
  wf := dot_S4096x3x49x32_S4096x3x49x32_S4096x3x49x49_3_3_2_2_01_01_wf
def dot_S4096x3x49x49_S4096x3x49x32_S4096x3x49x32_3_2_2_3_01_01 : DotDims S4096x3x49x49 S4096x3x49x32 S4096x3x49x32 where
  lhsContracting := [3]
  rhsContracting := [2]
  lhsNonContracting := [2]
  rhsNonContracting := [3]
  lhsBatch := [0, 1]
  rhsBatch := [0, 1]
  wf := dot_S4096x3x49x49_S4096x3x49x32_S4096x3x49x32_3_2_2_3_01_01_wf
def dot_S4096x49x96_S96x96_S4096x49x96_2_1_01_0_n_n : DotDims S4096x49x96 S96x96 S4096x49x96 where
  lhsContracting := [2]
  rhsContracting := [1]
  lhsNonContracting := [0, 1]
  rhsNonContracting := [0]
  lhsBatch := []
  rhsBatch := []
  wf := dot_S4096x49x96_S96x96_S4096x49x96_2_1_01_0_n_n_wf

class Facts : Prop extends Facts₀ where

variable [Facts]
-- ==== Proof.WindowAttention.lean ====
/-
  One window of shifted-window attention, as a function on the extended reals.

  A window holds 49 tokens of 96 channels.  A fused projection sends each token to 288 numbers:
  three groups of 96 (queries, keys, values), each group three heads of 32.  Head `h` forms, for
  tokens `n` and `m`, the logit  Σ_d (q[n,h,d]·s)·k[m,h,d] + mask[n,m];  each row of logits is
  turned into weights by the soft maximum  exp(l − max l) / Σ exp(l − max l);  the weights average
  the values  Σ_m p[n,m]·v[m,h,d];  the three heads' 32 numbers, laid side by side, make 96, and
  an output projection with a bias finishes the token.

  `out` is that function of one window's data; `G` applies it to every window `b` of a
  [4096, 49, 96] array, window `b` using mask `b mod 64`.
-/
import Idealize.ShloMosaic.PureOps.Ideal
import Idealize.ShloMosaic.Lib.ValueIdx

noncomputable section

namespace Cert.WindowAttn

open Idealize.ShloMosaic Idealize.ShloMosaic.ValueIdx

/-- The query scale, the binary32 word nearest 32^(-1/2); both programs multiply by this same word. -/
def scale : EReal := Ideal.ofBits .f32 0x3E3504F3#32

/-- The word a row maximum starts from (minus infinity). -/
def ninf : EReal := Ideal.ofBits .f32 0xFF800000#32

/-- Where head `h`'s query, key and value coordinate `d` sit among the 288 projected numbers. -/
def qi (h : Fin 3) (d : Fin 32) : Fin 288 := ⟨32 * h.val + d.val, by have := h.isLt; have := d.isLt; omega⟩
def ki (h : Fin 3) (d : Fin 32) : Fin 288 := ⟨96 + 32 * h.val + d.val, by have := h.isLt; have := d.isLt; omega⟩
def vi (h : Fin 3) (d : Fin 32) : Fin 288 := ⟨192 + 32 * h.val + d.val, by have := h.isLt; have := d.isLt; omega⟩

/-- The head and the coordinate inside it of channel `c` of the 96. -/
def hd (c : Fin 96) : Fin 3 := ⟨c.val / 32, by have := c.isLt; omega⟩
def dd (c : Fin 96) : Fin 32 := ⟨c.val % 32, Nat.mod_lt _ (by decide)⟩

/-- The fused projection of token `n`: Σ_c X[n,c]·W[j,c] + bias[j]. -/
def qkv (X : Fin 49 → Fin 96 → EReal) (W : Fin 288 → Fin 96 → EReal) (bq : Fin 288 → EReal)
    (n : Fin 49) (j : Fin 288) : EReal :=
  (∑ c : Fin 96, X n c * W j c) + bq j

/-- Head `h`'s logit of query token `n` against key token `m`. -/
def logit (Q : Fin 49 → Fin 288 → EReal) (M : Fin 49 → Fin 49 → EReal) (h : Fin 3) (n m : Fin 49) : EReal :=
  (∑ d : Fin 32, (Q n (qi h d) * scale) * Q m (ki h d)) + M n m

/-- A row's maximum, taken from minus infinity (and once more against it, as both programs do). -/
def rowmax (L : Fin 49 → EReal) : EReal := max ninf (Finset.univ.fold max ninf L)

/-- The soft maximum of a row of logits. -/
def prob (L : Fin 49 → EReal) (m : Fin 49) : EReal :=
  Ideal.div (Ideal.exp (L m - rowmax L)) (∑ k : Fin 49, Ideal.exp (L k - rowmax L))

/-- Head `h`'s weighted average of the values, coordinate `d`, for token `n`. -/
def ctx (Q : Fin 49 → Fin 288 → EReal) (M : Fin 49 → Fin 49 → EReal) (h : Fin 3) (n : Fin 49) (d : Fin 32) : EReal :=
  ∑ m : Fin 49, prob (logit Q M h n) m * Q m (vi h d)

/-- One window's attention output at token `n`, channel `o`. -/
def out (X : Fin 49 → Fin 96 → EReal) (M : Fin 49 → Fin 49 → EReal) (W : Fin 288 → Fin 96 → EReal)
    (bq : Fin 288 → EReal) (P : Fin 96 → Fin 96 → EReal) (pb : Fin 96 → EReal) (n : Fin 49) (o : Fin 96) : EReal :=
  (∑ c : Fin 96, ctx (qkv X W bq) M (hd c) n (dd c) * P o c) + pb o

/-- The mask a window uses: windows repeat with period 64. -/
def mk (b : Fin 4096) : Fin 64 := ⟨b.val % 64, Nat.mod_lt _ (by decide)⟩

/-- The whole result: every window `b` of the [4096, 49, 96] input put through `out`. -/
def G (X : (⟨3, ![4096, 49, 96]⟩ : Shape).Idx → EReal) (Mk : (⟨3, ![64, 49, 49]⟩ : Shape).Idx → EReal)
    (Wq : (⟨2, ![288, 96]⟩ : Shape).Idx → EReal) (bq : (⟨1, ![288]⟩ : Shape).Idx → EReal)
    (Pw : (⟨2, ![96, 96]⟩ : Shape).Idx → EReal) (pb : (⟨1, ![96]⟩ : Shape).Idx → EReal) :
    (⟨3, ![4096, 49, 96]⟩ : Shape).Idx → EReal :=
  fun i => out (fun n c => X (ix3 (i 0) n c)) (fun n m => Mk (ix3 (mk (i 0)) n m)) (fun j c => Wq (ix2 j c))
    (fun j => bq (ix1 j)) (fun o c => Pw (ix2 o c)) (fun o => pb (ix1 o)) (i 1) (i 2)

end Cert.WindowAttn

end
-- ==== Proof.LibBatchOps.lean ====
/-
  General lemmas: the vector operations of a kernel that works on a stack of matrices `[B, ·, ·]`, read at an
  index, at the ideal instance.

  * a batched matrix product into a zero accumulator, the leading axis the batch, in its two forms:
    `[B,N,K]·[B,J,K]` (rows against rows) at `(w, n, j)` is `Σ k, lhs (w, n, k) · rhs (w, j, k)`, and
    `[B,N,K]·[B,K,J]` (rows against columns) at `(w, n, j)` is `Σ k, lhs (w, n, k) · rhs (w, k, j)`;
  * a maximum and a sum over the last axis of a `[a, b, c]` vector, at `(w, n)`;
  * a band of the last axis, from `o`, at `(w, n, d)`;
  * a `[a, b]` array kept as `[a, b, 1]` and spread along the last axis; a one-row parameter `[1, c]` recast as
    `[1, 1, c]` and spread over `[a, b, c]`;
  * three arrays of one shape laid side by side along the last axis.
-/
import Idealize.ShloMosaic.PureOps.Ideal.Laws
import Idealize.ShloMosaic.Lib.ValueIdx
import Idealize.ShloMosaic.Lib.ValueLayout
import Idealize.ShloMosaic.Lib.Pipeline.Value

noncomputable section

namespace Cert.BatchOps

open Idealize.ShloMosaic Idealize.ShloMosaic.ValueIdx

variable {α : Type}

/-! ## Batched matrix products -/

/-- Rows against rows: `[B,N,K]·[B,J,K]`, batch on the leading axis, both operands contracted on their last axis,
    into the zero accumulator, at `(w, n, j)`. -/
theorem bmm_rows_rows_apply {B N J K : ℕ} {φ₁ φ₂ : FTy}
    (wf : DotDims.WF ⟨3, ![B, N, K]⟩ ⟨3, ![B, J, K]⟩ ⟨3, ![B, N, J]⟩ [2] [2] [1] [1] [0] [0])
    (prec : Option ContractPrecision) (lhs : FVec Ideal ⟨3, ![B, N, K]⟩ φ₁) (rhs : FVec Ideal ⟨3, ![B, J, K]⟩ φ₂)
    (w : Fin B) (n : Fin N) (j : Fin J) :
    FloatOps.matmul (⟨[2], [2], [1], [1], [0], [0], wf⟩ : DotDims ⟨3, ![B, N, K]⟩ ⟨3, ![B, J, K]⟩ ⟨3, ![B, N, J]⟩) prec lhs rhs
        (constant ⟨3, ![B, N, J]⟩ .f32 0x00000000#32) (ix3 w n j)
      = ∑ k : Fin K, lhs (ix3 w n k) * rhs (ix3 w j k) := by
  set D : DotDims ⟨3, ![B, N, K]⟩ ⟨3, ![B, J, K]⟩ ⟨3, ![B, N, J]⟩ := ⟨[2], [2], [1], [1], [0], [0], wf⟩ with hD
  have l0 : ∀ (i : (⟨3, ![B, N, J]⟩ : Shape).Idx) (q : D.contr.Idx), (D.lhsIdx i q 0).val = (i 0).val := by
    intro i q
    unfold DotDims.lhsIdx
    rw [dif_pos (show (0 : Fin 3) ∈ D.lhsBatch from List.mem_singleton.mpr rfl)]
    rfl
  have l1 : ∀ (i : (⟨3, ![B, N, J]⟩ : Shape).Idx) (q : D.contr.Idx), (D.lhsIdx i q 1).val = (i 1).val := by
    intro i q
    unfold DotDims.lhsIdx
    rw [dif_neg (show ¬(1 : Fin 3) ∈ D.lhsBatch from fun hm => absurd (congrArg Fin.val (List.mem_singleton.mp hm)) (by show ¬((1 : ℕ) = 0); omega)), dif_pos (show (1 : Fin 3) ∈ D.lhsNonContracting from List.mem_singleton.mpr rfl)]
    rfl
  have l2 : ∀ (i : (⟨3, ![B, N, J]⟩ : Shape).Idx) (q : D.contr.Idx), (D.lhsIdx i q 2).val = (q ⟨0, Nat.one_pos⟩).val :=
    fun i q => D.lhsIdx_val_of_single rfl i q
  have r0 : ∀ (i : (⟨3, ![B, N, J]⟩ : Shape).Idx) (q : D.contr.Idx), (D.rhsIdx i q 0).val = (i 0).val := by
    intro i q
    unfold DotDims.rhsIdx
    rw [dif_pos (show (0 : Fin 3) ∈ D.rhsBatch from List.mem_singleton.mpr rfl)]
    rfl
  have r1 : ∀ (i : (⟨3, ![B, N, J]⟩ : Shape).Idx) (q : D.contr.Idx), (D.rhsIdx i q 1).val = (i 2).val := by
    intro i q
    unfold DotDims.rhsIdx
    rw [dif_neg (show ¬(1 : Fin 3) ∈ D.rhsBatch from fun hm => absurd (congrArg Fin.val (List.mem_singleton.mp hm)) (by show ¬((1 : ℕ) = 0); omega)), dif_pos (show (1 : Fin 3) ∈ D.rhsNonContracting from List.mem_singleton.mpr rfl)]
    rfl
  have r2 : ∀ (i : (⟨3, ![B, N, J]⟩ : Shape).Idx) (q : D.contr.Idx), (D.rhsIdx i q 2).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix3 w n j) ((contrEquiv1 D K rfl rfl).symm k) = ix3 w n k := funext fun ax => Fin.ext (by
    match ax with
    | ⟨0, _⟩ => exact l0 _ _
    | ⟨1, _⟩ => exact l1 _ _
    | ⟨2, _⟩ => exact (l2 _ _).trans hk)
  have er : D.rhsIdx (ix3 w n j) ((contrEquiv1 D K rfl rfl).symm k) = ix3 w j k := funext fun ax => Fin.ext (by
    match ax with
    | ⟨0, _⟩ => exact r0 _ _
    | ⟨1, _⟩ => exact r1 _ _
    | ⟨2, _⟩ => exact (r2 _ _).trans hk)
  rw [el, er]

/-- Rows against columns: `[B,N,K]·[B,K,J]`, batch on the leading axis, the left operand contracted on its last axis
    and the right one on its middle axis, into the zero accumulator, at `(w, n, j)`. -/
theorem bmm_rows_cols_apply {B N J K : ℕ} {φ₁ φ₂ : FTy}
    (wf : DotDims.WF ⟨3, ![B, N, K]⟩ ⟨3, ![B, K, J]⟩ ⟨3, ![B, N, J]⟩ [2] [1] [1] [2] [0] [0])
    (prec : Option ContractPrecision) (lhs : FVec Ideal ⟨3, ![B, N, K]⟩ φ₁) (rhs : FVec Ideal ⟨3, ![B, K, J]⟩ φ₂)
    (w : Fin B) (n : Fin N) (j : Fin J) :
    FloatOps.matmul (⟨[2], [1], [1], [2], [0], [0], wf⟩ : DotDims ⟨3, ![B, N, K]⟩ ⟨3, ![B, K, J]⟩ ⟨3, ![B, N, J]⟩) prec lhs rhs
        (constant ⟨3, ![B, N, J]⟩ .f32 0x00000000#32) (ix3 w n j)
      = ∑ k : Fin K, lhs (ix3 w n k) * rhs (ix3 w k j) := by
  set D : DotDims ⟨3, ![B, N, K]⟩ ⟨3, ![B, K, J]⟩ ⟨3, ![B, N, J]⟩ := ⟨[2], [1], [1], [2], [0], [0], wf⟩ with hD
  have l0 : ∀ (i : (⟨3, ![B, N, J]⟩ : Shape).Idx) (q : D.contr.Idx), (D.lhsIdx i q 0).val = (i 0).val := by
    intro i q
    unfold DotDims.lhsIdx
    rw [dif_pos (show (0 : Fin 3) ∈ D.lhsBatch from List.mem_singleton.mpr rfl)]
    rfl
  have l1 : ∀ (i : (⟨3, ![B, N, J]⟩ : Shape).Idx) (q : D.contr.Idx), (D.lhsIdx i q 1).val = (i 1).val := by
    intro i q
    unfold DotDims.lhsIdx
    rw [dif_neg (show ¬(1 : Fin 3) ∈ D.lhsBatch from fun hm => absurd (congrArg Fin.val (List.mem_singleton.mp hm)) (by show ¬((1 : ℕ) = 0); omega)), dif_pos (show (1 : Fin 3) ∈ D.lhsNonContracting from List.mem_singleton.mpr rfl)]
    rfl
  have l2 : ∀ (i : (⟨3, ![B, N, J]⟩ : Shape).Idx) (q : D.contr.Idx), (D.lhsIdx i q 2).val = (q ⟨0, Nat.one_pos⟩).val :=
    fun i q => D.lhsIdx_val_of_single rfl i q
  have r0 : ∀ (i : (⟨3, ![B, N, J]⟩ : Shape).Idx) (q : D.contr.Idx), (D.rhsIdx i q 0).val = (i 0).val := by
    intro i q
    unfold DotDims.rhsIdx
    rw [dif_pos (show (0 : Fin 3) ∈ D.rhsBatch from List.mem_singleton.mpr rfl)]
    rfl
  have r1 : ∀ (i : (⟨3, ![B, N, J]⟩ : Shape).Idx) (q : D.contr.Idx), (D.rhsIdx i q 1).val = (q ⟨0, Nat.one_pos⟩).val :=
    fun i q => D.rhsIdx_val_of_single rfl i q
  have r2 : ∀ (i : (⟨3, ![B, N, J]⟩ : Shape).Idx) (q : D.contr.Idx), (D.rhsIdx i q 2).val = (i 2).val := by
    intro i q
    unfold DotDims.rhsIdx
    rw [dif_neg (show ¬(2 : Fin 3) ∈ D.rhsBatch from fun hm => absurd (congrArg Fin.val (List.mem_singleton.mp hm)) (by show ¬((2 : ℕ) = 0); omega)), dif_pos (show (2 : Fin 3) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix3 w n j) ((contrEquiv1 D K rfl rfl).symm k) = ix3 w n k := funext fun ax => Fin.ext (by
    match ax with
    | ⟨0, _⟩ => exact l0 _ _
    | ⟨1, _⟩ => exact l1 _ _
    | ⟨2, _⟩ => exact (l2 _ _).trans hk)
  have er : D.rhsIdx (ix3 w n j) ((contrEquiv1 D K rfl rfl).symm k) = ix3 w k j := funext fun ax => Fin.ext (by
    match ax with
    | ⟨0, _⟩ => exact r0 _ _
    | ⟨1, _⟩ => exact (r1 _ _).trans hk
    | ⟨2, _⟩ => exact r2 _ _)
  rw [el, er]

/-! ## Reductions over the last axis -/

/-- The inserted index of a reduction over the last axis of `[a, b, c]`: `(w, n)` with `k` put last. -/
theorem lift_last {a b c : ℕ} (h : (⟨3, ![a, b, c]⟩ : Shape).Reduces [2] ⟨2, ![a, b]⟩) (w : Fin a) (n : Fin b) (k : Fin c) :
    h.lift (ix2 w n) k = ix3 w n k := funext fun ax => Fin.ext (by
  match ax with
  | ⟨0, _⟩ => rfl
  | ⟨1, _⟩ => rfl
  | ⟨2, _⟩ => rfl)

/-- A maximum over the last axis of an `[a, b, c]` vector, at `(w, n)`: the fold of `max` from the starting word's value
    over that row. -/
theorem laneMax_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (w : Fin a) (n : Fin b) :
    multiReduction .maximumf [2] ⟨2, ![a, b]⟩ src acc h hφ hacc (ix2 w n)
      = (Finset.univ : Finset (Fin c)).fold max (Ideal.ofBits φ acc) (fun k => src (ix3 w n k)) := by
  rw [Ideal.multiReduction_maximumf_single]
  have e : (src ∘ h.lift (ix2 w n)) = fun k : Fin c => src (ix3 w n k) :=
    funext fun k => congrArg src (lift_last h w n k)
  rw [e]
  rfl

/-- A sum over the last axis of an `[a, b, c]` vector, at `(w, n)`: the sum of that row. -/
theorem laneSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (w : Fin a) (n : Fin b) :
    multiReduction .add [2] ⟨2, ![a, b]⟩ src acc h hφ hacc (ix2 w n) = ∑ k : Fin c, src (ix3 w n k) := by
  rw [Ideal.multiReduction_add_single]
  exact Finset.sum_congr rfl fun k _ => congrArg src (lift_last h w n k)

/-! ## Layout -/

/-- A band of the last axis of an `[a, b, c]` array, from `o`: at `(w, n, d)` it is the source at `(w, n, k)`, `k = o + d`. -/
theorem band_last_apply {a b c m : ℕ} (o : ℕ) (X : (⟨3, ![a, b, c]⟩ : Shape).Idx → α)
    (h : (⟨3, ![a, b, c]⟩ : Shape).Slices ![0, 0, o] ⟨3, ![a, b, m]⟩)
    (w : Fin a) (n : Fin b) (d : Fin m) (k : Fin c) (hk : k.val = o + d.val) :
    extractStridedSlice ⟨3, ![a, b, m]⟩ ![0, 0, o] X h (ix3 w n d) = X (ix3 w n k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b]` array kept as `[a, b, 1]` and spread along the last axis: at `(w, n, k)` it is the array at `(w, n)`. -/
theorem keep_spread_apply {a b c : ℕ} (v : (⟨2, ![a, b]⟩ : Shape).Idx → α)
    (hs : (⟨2, ![a, b]⟩ : Shape).ShapeCasts ⟨3, ![a, b, 1]⟩) (hb : (⟨3, ![a, b, 1]⟩ : Shape).Broadcasts ⟨3, ![a, b, c]⟩)
    (w : Fin a) (n : Fin b) (k : Fin c) :
    broadcastTo ⟨3, ![a, b, c]⟩ (shapeCast ⟨3, ![a, b, 1]⟩ v hs) hb (ix3 w n k) = v (ix2 w n) := by
  refine (broadcastTo_apply _ hb (ix3 w n k) (ix3 w n (0 : Fin 1)) fun ax => ?_).trans ?_
  · match ax with
    | ⟨0, _⟩ =>
      show w.val = if a = 1 then 0 else w.val
      split
      · have := w.isLt; omega
      · rfl
    | ⟨1, _⟩ =>
      show n.val = if b = 1 then 0 else n.val
      split
      · have := n.isLt; omega
      · rfl
    | ⟨2, _⟩ => rfl
  · refine shapeCast_apply v hs _ _ ?_
    rw [Shape.rowMajor_val_two, Shape.rowMajor_val_three]
    show w.val * b + n.val = (w.val * b + n.val) * 1 + 0
    omega

/-- A one-row parameter `[1, c]`, recast as `[1, 1, c]` and spread over `[a, b, c]`: at `(w, n, j)` it is the row's entry `j`. -/
theorem row_spread_apply {a b c : ℕ} (v : (⟨2, ![1, c]⟩ : Shape).Idx → α)
    (h0 : (⟨2, ![1, c]⟩ : Shape).ShapeCasts ⟨2, ![1, c]⟩) (h1 : (⟨2, ![1, c]⟩ : Shape).ShapeCasts ⟨3, ![1, 1, c]⟩)
    (hb : (⟨3, ![1, 1, c]⟩ : Shape).Broadcasts ⟨3, ![a, b, c]⟩) (w : Fin a) (n : Fin b) (j : Fin c) :
    broadcastTo ⟨3, ![a, b, c]⟩ (shapeCast ⟨3, ![1, 1, c]⟩ (shapeCast ⟨2, ![1, c]⟩ v h0) h1) hb (ix3 w n j)
      = v (ix2 (0 : Fin 1) j) := by
  refine (broadcastTo_apply _ hb (ix3 w n j) (ix3 (0 : Fin 1) (0 : Fin 1) j) fun ax => ?_).trans ?_
  · match ax with
    | ⟨0, _⟩ => rfl
    | ⟨1, _⟩ => rfl
    | ⟨2, _⟩ =>
      show j.val = if c = 1 then 0 else j.val
      split
      · have := j.isLt; omega
      · rfl
  · rw [shapeCast_self]
    refine shapeCast_apply v h1 _ _ ?_
    rw [Shape.rowMajor_val_two, Shape.rowMajor_val_three]
    show 0 * c + j.val = (0 * 1 + 0) * c + j.val
    omega

/-- Three arrays of shape `[a, b, K]` laid side by side along the last axis: at `(w, n, j)` the piece `p` that holds `j`,
    at `(w, n, d)` with `j = K p + d`. -/
theorem side_by_side3_apply {a b K : ℕ} (x₀ x₁ x₂ : (⟨3, ![a, b, K]⟩ : Shape).Idx → α)
    (h : Shape.Concatenates (([⟨⟨3, ![a, b, K]⟩, x₀⟩, ⟨⟨3, ![a, b, K]⟩, x₁⟩, ⟨⟨3, ![a, b, K]⟩, x₂⟩] :
      List ((s : Shape) × (s.Idx → α))).map (·.1)) ⟨3, ![a, b, 3 * K]⟩ 2)
    (w : Fin a) (n : Fin b) (j : Fin (3 * K)) (p : Fin 3) (d : Fin K) (hj : j.val = K * p.val + d.val) :
    concatenate ⟨3, ![a, b, 3 * K]⟩ 2 [⟨⟨3, ![a, b, K]⟩, x₀⟩, ⟨⟨3, ![a, b, K]⟩, x₁⟩, ⟨⟨3, ![a, b, K]⟩, x₂⟩] h (ix3 w n j)
      = (match p with | 0 => x₀ | 1 => x₁ | 2 => x₂) (ix3 w n d) := by
  have hi : ∀ bb : Fin 3, bb.cast (rfl : (3 : ℕ) = 3) ≠ (2 : Fin 3) → ((ix3 w n d : (⟨3, ![a, b, K]⟩ : Shape).Idx) bb).val = ((ix3 w n j : (⟨3, ![a, b, 3 * K]⟩ : Shape).Idx) (bb.cast rfl)).val := by
    intro bb hbb
    match bb with
    | ⟨0, _⟩ => rfl
    | ⟨1, _⟩ => rfl
    | ⟨2, _⟩ => exact absurd rfl hbb
  match p with
  | ⟨0, _⟩ =>
    exact concatenate_apply_piece 2 _ h (ix3 w n j) 0 (by show 0 < 3; omega) ⟨3, ![a, b, K]⟩ x₀ rfl rfl 0 rfl (ix3 w n d) hi
      (by show 0 + d.val = j.val; simp at hj; omega)
  | ⟨1, _⟩ =>
    exact concatenate_apply_piece 2 _ h (ix3 w n j) 1 (by show 1 < 3; omega) ⟨3, ![a, b, K]⟩ x₁ rfl rfl K (by simp) (ix3 w n d) hi
      (by show K + d.val = j.val; simp at hj; omega)
  | ⟨2, _⟩ =>
    exact concatenate_apply_piece 2 _ h (ix3 w n j) 2 (by show 2 < 3; omega) ⟨3, ![a, b, K]⟩ x₂ rfl rfl (K + K) (by simp) (ix3 w n d) hi
      (by show K + K + d.val = j.val; simp at hj; omega)

end Cert.BatchOps

end
-- ==== Proof.AttentionCore.lean ====
/-
  The chain one head runs on a block of 64 windows, as one function of the head's query, key and value blocks
  `[64, 49, 32]` and the block's mask `[64, 49, 49]`: scores `q·kᵀ` per window, the mask added, each row turned into
  weights by the soft maximum, and the weights applied to the values.  Read at `(w, n, d)` it is window `w`'s
  `Σ_m prob(row n of the logits) m · v[m, d]`.
-/
import proofs.«116542_j20444044329734_1_alg».proof.Proof.Gen.KernelIdeal.Skeleton
import proofs.«116542_j20444044329734_1_alg».proof.Proof.WindowAttention
import proofs.«116542_j20444044329734_1_alg».proof.Proof.LibBatchOps

noncomputable section

namespace Cert.KernelIdeal.BlockAttn

open Idealize.ShloMosaic Idealize.ShloMosaic.TcCoe Idealize.ShloMosaic.ValueIdx
open Cert.KernelIdeal Cert.KernelIdeal.Gen Cert.WindowAttn Cert.BatchOps

/-- The block's masked scores: `q·kᵀ + M`, per window. -/
def scoresV (q k : FVec Ideal S64x49x32 .bf16) (M : Vec Ideal S64x49x49 .f32) : FVec Ideal S64x49x49 .f32 :=
  addf (matmul dot_S64x49x32_S64x49x32_S64x49x49_2_2_1_1_0_0 none q k (constant S64x49x49 .f32 0x00000000#32)) M

/-- Each row of scores less its maximum, exponentiated. -/
def expV (L : FVec Ideal S64x49x49 .f32) : FVec Ideal S64x49x49 .f32 :=
  exp (subf L (broadcastTo S64x49x49 (shapeCast S64x49x1
    (maximumf (broadcast S64x49 (Scalar.ofBits .f32 0xFF800000#32))
      (multiReduction .maximumf [2] S64x49 L 0xFF800000#32 reduces_S64x49x49_S64x49 (.inl rfl) rfl))
    shapeCasts_S64x49_S64x49x1) broadcasts_S64x49x1_S64x49x49))

/-- The rows' weights: the exponentials over their row sums. -/
def weightsV (E : FVec Ideal S64x49x49 .f32) : FVec Ideal S64x49x49 .f32 :=
  divf E (broadcastTo S64x49x49 (shapeCast S64x49x1
    (multiReduction .add [2] S64x49 E 0x00000000#32 reduces_S64x49x49_S64x49 (.inl rfl) rfl)
    shapeCasts_S64x49_S64x49x1) broadcasts_S64x49x1_S64x49x49)

/-- One head on the block: the weights of the masked scores applied to the values. -/
def coreV (q k v : FVec Ideal S64x49x32 .bf16) (M : Vec Ideal S64x49x49 .f32) : FVec Ideal S64x49x32 .f32 :=
  matmul dot_S64x49x49_S64x49x32_S64x49x32_2_1_1_2_0_0 none
    (truncf .bf16 (weightsV (expV (scoresV q k M))) bitsLt_bf16_f32) v (constant S64x49x32 .f32 0x00000000#32)

/-- The masked scores at window `w`, tokens `n`, `m`. -/
theorem scoresV_apply (q k : FVec Ideal S64x49x32 .bf16) (M : Vec Ideal S64x49x49 .f32) (w : Fin 64) (n m : Fin 49) :
    scoresV q k M (ix3 w n m) = (∑ e : Fin 32, q (ix3 w n e) * k (ix3 w m e)) + M (ix3 w n m) := by
  unfold scoresV
  refine congrArg₂ (· + ·) ?_ rfl
  exact bmm_rows_rows_apply (B := 64) (N := 49) (J := 49) (K := 32) dot_S64x49x32_S64x49x32_S64x49x49_2_2_1_1_0_0_wf none q k w n m

/-- A row's exponentials: each entry less the row's maximum, exponentiated. -/
theorem expV_apply (L : FVec Ideal S64x49x49 .f32) (w : Fin 64) (n m : Fin 49) :
    expV L (ix3 w n m) = Ideal.exp (L (ix3 w n m) - rowmax (fun m' => L (ix3 w n m'))) := by
  unfold expV rowmax ninf
  refine congrArg (fun z => Ideal.exp (L (ix3 w n m) - z)) ?_
  refine (keep_spread_apply (a := 64) (b := 49) (c := 49) _ shapeCasts_S64x49_S64x49x1 broadcasts_S64x49x1_S64x49x49 w n m).trans ?_
  refine congrArg (max (Ideal.ofBits .f32 0xFF800000#32)) ?_
  exact laneMax_apply (a := 64) (b := 49) (c := 49) L 0xFF800000#32 reduces_S64x49x49_S64x49 (.inl rfl) rfl w n

/-- A row's weights: each exponential over the row's sum. -/
theorem weightsV_apply (E : FVec Ideal S64x49x49 .f32) (w : Fin 64) (n m : Fin 49) :
    weightsV E (ix3 w n m) = Ideal.div (E (ix3 w n m)) (∑ k : Fin 49, E (ix3 w n k)) := by
  unfold weightsV
  refine congrArg (Ideal.div (E (ix3 w n m))) ?_
  refine (keep_spread_apply (a := 64) (b := 49) (c := 49) _ shapeCasts_S64x49_S64x49x1 broadcasts_S64x49x1_S64x49x49 w n m).trans ?_
  exact laneSum_apply (a := 64) (b := 49) (c := 49) E 0x00000000#32 reduces_S64x49x49_S64x49 (.inl rfl) rfl w n

/-- The head's result at window `w`, token `n`, coordinate `d`: the soft maximum of token `n`'s row of logits, applied
    to coordinate `d` of the values. -/
theorem coreV_apply (q k v : FVec Ideal S64x49x32 .bf16) (M : Vec Ideal S64x49x49 .f32) (w : Fin 64) (n : Fin 49) (d : Fin 32) :
    coreV q k v M (ix3 w n d)
      = ∑ m : Fin 49, prob (fun m' => (∑ e : Fin 32, q (ix3 w n e) * k (ix3 w m' e)) + M (ix3 w n m')) m * v (ix3 w m d) := by
  unfold coreV
  refine (bmm_rows_cols_apply (B := 64) (N := 49) (J := 32) (K := 49) dot_S64x49x49_S64x49x32_S64x49x32_2_1_1_2_0_0_wf none _ v w n d).trans ?_
  refine Finset.sum_congr rfl fun m _ => congrArg (· * v (ix3 w m d)) ?_
  show weightsV (expV (scoresV q k M)) (ix3 w n m) = _
  rw [weightsV_apply]
  unfold prob
  have hs : (fun m' => scoresV q k M (ix3 w n m')) = fun m' => (∑ e : Fin 32, q (ix3 w n e) * k (ix3 w m' e)) + M (ix3 w n m') :=
    funext fun m' => scoresV_apply q k M w n m'
  have he : ∀ j : Fin 49, expV (scoresV q k M) (ix3 w n j)
      = Ideal.exp (((∑ e : Fin 32, q (ix3 w n e) * k (ix3 w j e)) + M (ix3 w n j))
          - rowmax (fun m' => (∑ e : Fin 32, q (ix3 w n e) * k (ix3 w m' e)) + M (ix3 w n m'))) := by
    intro j
    rw [expV_apply, hs, scoresV_apply]
  rw [he m]
  exact congrArg (Ideal.div _) (Finset.sum_congr rfl fun j _ => he j)

end Cert.KernelIdeal.BlockAttn

end
-- ==== Proof.BlockAttention.lean ====
/-
  The kernel body's one store, read at an index of the block.

  The body works a block of 64 windows at once.  It projects the block's tokens to 288 numbers each (one batched
  product and a bias), cuts from them each head's query, key and value bands (the query band scaled), runs the three
  heads, lays their 32 numbers side by side to make 96, and applies the output projection and its bias.  Every step
  acts on each window of the block separately, so at window `w`, token `n`, channel `o` the stored value is the
  single-window attention `out` of window `w`'s rows of the block's operands.
-/
import proofs.«116542_j20444044329734_1_alg».proof.Proof.AttentionCore
import Idealize.ShloMosaic.Lib.ValueLayout
import Idealize.ShloMosaic.Lib.Pipeline.Value
import Idealize.ShloMosaic.PureOps.Ideal.Laws

noncomputable section

namespace Cert.KernelIdeal.BlockAttn

open Idealize.ShloMosaic Idealize.ShloMosaic.TcCoe Idealize.ShloMosaic.ValueIdx
open Cert.KernelIdeal Cert.KernelIdeal.Gen Cert.WindowAttn Cert.BatchOps

/-- The fused projection of the block, at window w, token n, number j: window w's projection of token n. -/
theorem pay2_apply (x0 : Vec Ideal S64x49x96 .f32) (x2 : Vec Ideal S64x288x96 .bf16) (x3 : Vec Ideal S1x288 .f32) (w : Fin 64) (n : Fin 49) (j : Fin 288) :
    k0_pay2 (F := Ideal) x0 x2 x3 (ix3 w n j) = qkv (fun n c => x0 (ix3 w n c)) (fun j c => x2 (ix3 w j c)) (fun j => x3 (ix2 (0 : Fin 1) j)) n j := by
  unfold k0_pay2 qkv
  refine congrArg₂ (· + ·) ?_ ?_
  · refine (bmm_rows_rows_apply (B := 64) (N := 49) (J := 288) (K := 96) dot_S64x49x96_S64x288x96_S64x49x288_2_2_1_1_0_0_wf none _ _ w n j).trans ?_
    refine Finset.sum_congr rfl fun c _ => ?_
    rw [shapeCast_self]
    rfl
  · exact row_spread_apply (a := 64) (b := 49) (c := 288) x3 _ _ _ w n j

/-- Window w's rows of the block's projection are the window's own projection. -/
theorem pay2_rows (x0 : Vec Ideal S64x49x96 .f32) (x2 : Vec Ideal S64x288x96 .bf16) (x3 : Vec Ideal S1x288 .f32) (w : Fin 64) :
    (fun (n : Fin 49) (j : Fin 288) => k0_pay2 (F := Ideal) x0 x2 x3 (ix3 w n j))
      = qkv (fun n c => x0 (ix3 w n c)) (fun j c => x2 (ix3 w j c)) (fun j => x3 (ix2 (0 : Fin 1) j)) :=
  funext fun n => funext fun j => pay2_apply x0 x2 x3 w n j

/-- One head on the block, its three bands cut from the projected numbers V at the head's offsets (the query band
    scaled): at window w, token n, coordinate d it is window w's weighted average of the values for head h. -/
theorem head_apply (V : FVec Ideal S64x49x288 .f32) (M : Vec Ideal S64x49x49 .f32) (h : Fin 3) (oq ok ov : ℕ)
    (hq : S64x49x288.Slices ![0, 0, oq] S64x49x32) (hk : S64x49x288.Slices ![0, 0, ok] S64x49x32)
    (hv : S64x49x288.Slices ![0, 0, ov] S64x49x32)
    (eq : oq = 32 * h.val) (ek : ok = 96 + 32 * h.val) (ev : ov = 192 + 32 * h.val)
    (w : Fin 64) (n : Fin 49) (d : Fin 32) :
    coreV (truncf .bf16 (mulf (extractStridedSlice S64x49x32 ![0, 0, oq] V hq) (broadcast S64x49x32 (Scalar.ofBits .f32 0x3E3504F3#32))) bitsLt_bf16_f32)
        (truncf .bf16 (extractStridedSlice S64x49x32 ![0, 0, ok] V hk) bitsLt_bf16_f32)
        (truncf .bf16 (extractStridedSlice S64x49x32 ![0, 0, ov] V hv) bitsLt_bf16_f32) M (ix3 w n d)
      = ctx (fun n j => V (ix3 w n j)) (fun n m => M (ix3 w n m)) h n d := by
  have bq : ∀ (t : Fin 49) (e : Fin 32), extractStridedSlice S64x49x32 ![0, 0, oq] V hq (ix3 w t e) = V (ix3 w t (qi h e)) :=
    fun t e => band_last_apply (a := 64) (b := 49) (c := 288) (m := 32) oq V hq w t e (qi h e) (by rw [eq]; rfl)
  have bk : ∀ (t : Fin 49) (e : Fin 32), extractStridedSlice S64x49x32 ![0, 0, ok] V hk (ix3 w t e) = V (ix3 w t (ki h e)) :=
    fun t e => band_last_apply (a := 64) (b := 49) (c := 288) (m := 32) ok V hk w t e (ki h e) (by rw [ek]; rfl)
  have bv : ∀ (t : Fin 49) (e : Fin 32), extractStridedSlice S64x49x32 ![0, 0, ov] V hv (ix3 w t e) = V (ix3 w t (vi h e)) :=
    fun t e => band_last_apply (a := 64) (b := 49) (c := 288) (m := 32) ov V hv w t e (vi h e) (by rw [ev]; rfl)
  refine (coreV_apply _ _ _ M w n d).trans ?_
  unfold ctx
  refine Finset.sum_congr rfl fun m _ => ?_
  refine congrArg₂ (· * ·) ?_ (bv m d)
  refine congrArg (fun L => prob L m) (funext fun m' => ?_)
  unfold logit
  refine congrArg₂ (· + ·) (Finset.sum_congr rfl fun e _ => ?_) rfl
  refine congrArg₂ (· * ·) ?_ (bk m' e)
  exact congrArg (· * scale) (bq n e)

/-- Head 0, whole: window w's weighted average of the values for head 0. -/
theorem head0_apply (x0 : Vec Ideal S64x49x96 .f32) (x1 : Vec Ideal S64x49x49 .f32) (x2 : Vec Ideal S64x288x96 .bf16)
    (x3 : Vec Ideal S1x288 .f32) (w : Fin 64) (n : Fin 49) (d : Fin 32) :
    k0_pay3 (F := Ideal) x0 x2 x3 x1 (ix3 w n d)
      = ctx (qkv (fun n c => x0 (ix3 w n c)) (fun j c => x2 (ix3 w j c)) (fun j => x3 (ix2 (0 : Fin 1) j)))
          (fun n m => x1 (ix3 w n m)) 0 n d := by
  rw [← pay2_rows x0 x2 x3 w]
  exact head_apply (k0_pay2 x0 x2 x3) x1 0 0 96 192 slices_S64x49x288_o0_0_0_S64x49x32 slices_S64x49x288_o0_0_96_S64x49x32
    slices_S64x49x288_o0_0_192_S64x49x32 rfl rfl rfl w n d

/-- Head 1, its scaled query band and key band given as the two payloads that carry them. -/
theorem head1_apply (x0 : Vec Ideal S64x49x96 .f32) (x1 : Vec Ideal S64x49x49 .f32) (x2 : Vec Ideal S64x288x96 .bf16)
    (x3 : Vec Ideal S1x288 .f32) (w : Fin 64) (n : Fin 49) (d : Fin 32) :
    coreV (k0_pay4 (F := Ideal) x0 x2 x3) (k0_pay5 x0 x2 x3)
        (truncf .bf16 (extractStridedSlice S64x49x32 ![0, 0, 224] (k0_pay2 x0 x2 x3) slices_S64x49x288_o0_0_224_S64x49x32) bitsLt_bf16_f32)
        x1 (ix3 w n d)
      = ctx (qkv (fun n c => x0 (ix3 w n c)) (fun j c => x2 (ix3 w j c)) (fun j => x3 (ix2 (0 : Fin 1) j)))
          (fun n m => x1 (ix3 w n m)) 1 n d := by
  rw [← pay2_rows x0 x2 x3 w]
  exact head_apply (k0_pay2 x0 x2 x3) x1 1 32 128 224 slices_S64x49x288_o0_0_32_S64x49x32 slices_S64x49x288_o0_0_128_S64x49x32
    slices_S64x49x288_o0_0_224_S64x49x32 rfl rfl rfl w n d

/-- Head 2, its three bands cut from the projected numbers. -/
theorem head2_apply (x0 : Vec Ideal S64x49x96 .f32) (x1 : Vec Ideal S64x49x49 .f32) (x2 : Vec Ideal S64x288x96 .bf16)
    (x3 : Vec Ideal S1x288 .f32) (w : Fin 64) (n : Fin 49) (d : Fin 32) :
    coreV (truncf .bf16 (mulf (extractStridedSlice S64x49x32 ![0, 0, 64] (k0_pay2 (F := Ideal) x0 x2 x3) slices_S64x49x288_o0_0_64_S64x49x32) (broadcast S64x49x32 (Scalar.ofBits .f32 0x3E3504F3#32))) bitsLt_bf16_f32)
        (truncf .bf16 (extractStridedSlice S64x49x32 ![0, 0, 160] (k0_pay2 x0 x2 x3) slices_S64x49x288_o0_0_160_S64x49x32) bitsLt_bf16_f32)
        (truncf .bf16 (extractStridedSlice S64x49x32 ![0, 0, 256] (k0_pay2 x0 x2 x3) slices_S64x49x288_o0_0_256_S64x49x32) bitsLt_bf16_f32)
        x1 (ix3 w n d)
      = ctx (qkv (fun n c => x0 (ix3 w n c)) (fun j c => x2 (ix3 w j c)) (fun j => x3 (ix2 (0 : Fin 1) j)))
          (fun n m => x1 (ix3 w n m)) 2 n d := by
  rw [← pay2_rows x0 x2 x3 w]
  exact head_apply (k0_pay2 x0 x2 x3) x1 2 64 160 256 slices_S64x49x288_o0_0_64_S64x49x32 slices_S64x49x288_o0_0_160_S64x49x32
    slices_S64x49x288_o0_0_256_S64x49x32 rfl rfl rfl w n d

/-- The last payload before the bias: heads 1 and 2 run from the projected numbers, the three heads laid side by side,
    and the output projection applied. -/
theorem pay6_eq (v9 : FVec Ideal S64x49x288 .f32) (v10 : Vec Ideal S64x49x49 .f32) (v33 : FVec Ideal S64x49x32 .f32)
    (v37 v39 : FVec Ideal S64x49x32 .bf16) (v82 : Vec Ideal S64x96x96 .bf16) :
    k0_pay6 (F := Ideal) v9 v10 v33 v37 v39 v82
      = matmul dot_S64x49x96_S64x96x96_S64x49x96_2_2_1_1_0_0 none
          (truncf .bf16 (concatenate S64x49x96 2
            [⟨S64x49x32, v33⟩,
             ⟨S64x49x32, coreV v37 v39 (truncf .bf16 (extractStridedSlice S64x49x32 ![0, 0, 224] v9 slices_S64x49x288_o0_0_224_S64x49x32) bitsLt_bf16_f32) v10⟩,
             ⟨S64x49x32, coreV (truncf .bf16 (mulf (extractStridedSlice S64x49x32 ![0, 0, 64] v9 slices_S64x49x288_o0_0_64_S64x49x32) (broadcast S64x49x32 (Scalar.ofBits .f32 0x3E3504F3#32))) bitsLt_bf16_f32)
                (truncf .bf16 (extractStridedSlice S64x49x32 ![0, 0, 160] v9 slices_S64x49x288_o0_0_160_S64x49x32) bitsLt_bf16_f32)
                (truncf .bf16 (extractStridedSlice S64x49x32 ![0, 0, 256] v9 slices_S64x49x288_o0_0_256_S64x49x32) bitsLt_bf16_f32) v10⟩]
            concatenates_S64x49x32_S64x49x32_S64x49x32_S64x49x96_d2) bitsLt_bf16_f32)
          (shapeCast S64x96x96 v82 shapeCasts_S64x96x96_S64x96x96 : FVec Ideal S64x96x96 .bf16) (constant S64x49x96 .f32 0x00000000#32) := rfl

/-- The three heads side by side, at window w, token n, channel c = 32 p + d: head p's weighted average, coordinate d. -/
theorem heads_apply (x0 : Vec Ideal S64x49x96 .f32) (x1 : Vec Ideal S64x49x49 .f32) (x2 : Vec Ideal S64x288x96 .bf16)
    (x3 : Vec Ideal S1x288 .f32) (w : Fin 64) (n : Fin 49) (c : Fin 96) (p : Fin 3) (d : Fin 32) (hc : c.val = 32 * p.val + d.val) :
    concatenate S64x49x96 2
        [⟨S64x49x32, k0_pay3 (F := Ideal) x0 x2 x3 x1⟩,
         ⟨S64x49x32, coreV (k0_pay4 x0 x2 x3) (k0_pay5 x0 x2 x3) (truncf .bf16 (extractStridedSlice S64x49x32 ![0, 0, 224] (k0_pay2 x0 x2 x3) slices_S64x49x288_o0_0_224_S64x49x32) bitsLt_bf16_f32) x1⟩,
         ⟨S64x49x32, coreV (truncf .bf16 (mulf (extractStridedSlice S64x49x32 ![0, 0, 64] (k0_pay2 x0 x2 x3) slices_S64x49x288_o0_0_64_S64x49x32) (broadcast S64x49x32 (Scalar.ofBits .f32 0x3E3504F3#32))) bitsLt_bf16_f32)
            (truncf .bf16 (extractStridedSlice S64x49x32 ![0, 0, 160] (k0_pay2 x0 x2 x3) slices_S64x49x288_o0_0_160_S64x49x32) bitsLt_bf16_f32)
            (truncf .bf16 (extractStridedSlice S64x49x32 ![0, 0, 256] (k0_pay2 x0 x2 x3) slices_S64x49x288_o0_0_256_S64x49x32) bitsLt_bf16_f32) x1⟩]
        concatenates_S64x49x32_S64x49x32_S64x49x32_S64x49x96_d2 (ix3 w n c)
      = ctx (qkv (fun n c => x0 (ix3 w n c)) (fun j c => x2 (ix3 w j c)) (fun j => x3 (ix2 (0 : Fin 1) j)))
          (fun n m => x1 (ix3 w n m)) p n d := by
  match p, hc with
  | ⟨0, _⟩, hc =>
    exact (side_by_side3_apply (a := 64) (b := 49) (K := 32) _ _ _ concatenates_S64x49x32_S64x49x32_S64x49x32_S64x49x96_d2 w n c ⟨0, by omega⟩ d hc).trans
      (head0_apply x0 x1 x2 x3 w n d)
  | ⟨1, _⟩, hc =>
    exact (side_by_side3_apply (a := 64) (b := 49) (K := 32) _ _ _ concatenates_S64x49x32_S64x49x32_S64x49x32_S64x49x96_d2 w n c ⟨1, by omega⟩ d hc).trans
      (head1_apply x0 x1 x2 x3 w n d)
  | ⟨2, _⟩, hc =>
    exact (side_by_side3_apply (a := 64) (b := 49) (K := 32) _ _ _ concatenates_S64x49x32_S64x49x32_S64x49x32_S64x49x96_d2 w n c ⟨2, by omega⟩ d hc).trans
      (head2_apply x0 x1 x2 x3 w n d)

theorem payload_apply (x0 : Vec Ideal S64x49x96 .f32) (x1 : Vec Ideal S64x49x49 .f32) (x2 : Vec Ideal S64x288x96 .bf16)
    (x3 : Vec Ideal S1x288 .f32) (x4 : Vec Ideal S64x96x96 .bf16) (x5 : Vec Ideal S1x96 .f32)
    (w : Fin 64) (n : Fin 49) (o : Fin 96) :
    k0_pay1 (F := Ideal) (k0_pay6 (k0_pay2 x0 x2 x3) x1 (k0_pay3 x0 x2 x3 x1) (k0_pay4 x0 x2 x3) (k0_pay5 x0 x2 x3) x4) x5 (ix3 w n o)
      = out (fun n c => x0 (ix3 w n c)) (fun n m => x1 (ix3 w n m)) (fun j c => x2 (ix3 w j c))
          (fun j => x3 (ix2 (0 : Fin 1) j)) (fun o c => x4 (ix3 w o c)) (fun o => x5 (ix2 (0 : Fin 1) o)) n o := by
  unfold k0_pay1 out
  refine congrArg₂ (· + ·) ?_ ?_
  · rw [pay6_eq]
    refine (bmm_rows_rows_apply (B := 64) (N := 49) (J := 96) (K := 96) dot_S64x49x96_S64x96x96_S64x49x96_2_2_1_1_0_0_wf none _ _ w n o).trans ?_
    refine Finset.sum_congr rfl fun c _ => ?_
    rw [shapeCast_self]
    refine congrArg₂ (· * ·) ?_ rfl
    exact heads_apply x0 x1 x2 x3 w n c (hd c) (dd c) (by
      show c.val = 32 * (c.val / 32) + c.val % 32
      exact (Nat.div_add_mod c.val 32).symm)
  · exact row_spread_apply (a := 64) (b := 49) (c := 96) x5 _ _ _ w n o

end Cert.KernelIdeal.BlockAttn

end
-- ==== Proof.ArrayAttention.lean ====
/-
  From the blocks to the array.

  Grid point `t` reads windows `64 t … 64 t + 63` of the input, the whole mask, and the projection weights and
  biases (which the program copied per window, or recast as one row, before the call), and writes the same 64 windows of
  the result.  Window `64 t + w` uses mask `(64 t + w) mod 64 = w`, the mask row the block holds at `w`.  So what a
  point writes back is its block of the window attention `G` of the argument arrays, and the 64 blocks cover the
  array: after the run the result array is `G`.
-/
import proofs.«116542_j20444044329734_1_alg».proof.Proof.Gen.KernelIdeal.Value
import proofs.«116542_j20444044329734_1_alg».proof.Proof.WindowAttention
import proofs.«116542_j20444044329734_1_alg».proof.Proof.BlockAttention
import Idealize.ShloMosaic.Lib.ValueLayout
import Idealize.ShloMosaic.Lib.StableHlo.Run

noncomputable section

namespace Cert.KernelIdeal.ArrayAttn

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.WindowAttn

variable (m : (ℓ : Loc nD τ sig) → Buf (Elt Ideal) ℓ) (ρ : Dev nD → PrngReg)

/-- The zero offsets of a whole rank-3 block, as the constant function. -/
theorem hz3 : (![0, 0, 0] : Fin 3 → Nat) = fun _ => 0 :=
  funext fun a => match a with | ⟨0, _⟩ => rfl | ⟨1, _⟩ => rfl | ⟨2, _⟩ => rfl

/-- The zero offsets of a whole rank-2 block, as the constant function. -/
theorem hz2 : (![0, 0] : Fin 2 → Nat) = fun _ => 0 :=
  funext fun a => match a with | ⟨0, _⟩ => rfl | ⟨1, _⟩ => rfl

/-- The index maps over the grid: the input windows of x and the result move one block of 64 windows per point
    along the first axis; every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## The arrays the host operations wrote before the call -/

/-- The fused projection's weights as the call finds them: the argument narrowed, then copied 64 times. -/
theorem V_wqkv (c : Dev nD) : (V m c main_v2 : S64x288x96.Idx → EReal)
    = broadcastInDim S64x288x96 ![0, 1, 2] bcast_S1x288x96_S64x288x96_0_1_2
        (broadcastInDim S1x288x96 ![1, 2] bcast_S288x96_S1x288x96_1_2
          (truncf (F := Ideal) .bf16 (m ((c : Thread nD τ).loc main_arg2)) bitsLt_bf16_f32)) := by
  dsimp only [Gen.V, Gen.hostOps0]; after_results

/-- The output projection's weights as the call finds them: the argument narrowed, then copied 64 times. -/
theorem V_wproj (c : Dev nD) : (V m c main_v5 : S64x96x96.Idx → EReal)
    = broadcastInDim S64x96x96 ![0, 1, 2] bcast_S1x96x96_S64x96x96_0_1_2
        (broadcastInDim S1x96x96 ![1, 2] bcast_S96x96_S1x96x96_1_2
          (truncf (F := Ideal) .bf16 (m ((c : Thread nD τ).loc main_arg4)) bitsLt_bf16_f32)) := by
  dsimp only [Gen.V, Gen.hostOps0]; after_results

/-- The fused projection's bias as the call finds it: the argument as one row. -/
theorem V_bqkv (c : Dev nD) : (V m c main_v6 : S1x288.Idx → EReal)
    = shapeCast S1x288 (m ((c : Thread nD τ).loc main_arg3)) shapeCasts_S288_S1x288 := by
  dsimp only [Gen.V, Gen.hostOps0]; after_results; rfl

/-- The output projection's bias as the call finds it: the argument as one row. -/
theorem V_bproj (c : Dev nD) : (V m c main_v7 : S1x96.Idx → EReal)
    = shapeCast S1x96 (m ((c : Thread nD τ).loc main_arg5)) shapeCasts_S96_S1x96 := by
  dsimp only [Gen.V, Gen.hostOps0]; after_results; rfl

/-- Every one of the 64 copies of the fused projection's weights is the argument. -/
theorem V_wqkv_apply (c : Dev nD) (w : Fin 64) (j : Fin 288) (k : Fin 96) :
    (V m c main_v2 : S64x288x96.Idx → EReal) (ix3 w j k) = m ((c : Thread nD τ).loc main_arg2) (ix2 j k) := by
  rw [V_wqkv]
  refine (broadcastInDim_apply _ _ _ (ix3 w j k) (ix3 (0 : Fin 1) j k) (fun a => ?_)).trans ?_
  · match a with
    | ⟨0, _⟩ => rfl
    | ⟨1, _⟩ => rfl
    | ⟨2, _⟩ => rfl
  refine (broadcastInDim_apply _ _ _ (ix3 (0 : Fin 1) j k) (ix2 j k) (fun a => ?_)).trans ?_
  · match a with
    | ⟨0, _⟩ => rfl
    | ⟨1, _⟩ => rfl
  rfl

/-- Every one of the 64 copies of the output projection's weights is the argument. -/
theorem V_wproj_apply (c : Dev nD) (w : Fin 64) (o : Fin 96) (k : Fin 96) :
    (V m c main_v5 : S64x96x96.Idx → EReal) (ix3 w o k) = m ((c : Thread nD τ).loc main_arg4) (ix2 o k) := by
  rw [V_wproj]
  refine (broadcastInDim_apply _ _ _ (ix3 w o k) (ix3 (0 : Fin 1) o k) (fun a => ?_)).trans ?_
  · match a with
    | ⟨0, _⟩ => rfl
    | ⟨1, _⟩ => rfl
    | ⟨2, _⟩ => rfl
  refine (broadcastInDim_apply _ _ _ (ix3 (0 : Fin 1) o k) (ix2 o k) (fun a => ?_)).trans ?_
  · match a with
    | ⟨0, _⟩ => rfl
    | ⟨1, _⟩ => rfl
  rfl

/-- The one row of the fused projection's bias is the argument. -/
theorem V_bqkv_apply (c : Dev nD) (j : Fin 288) :
    (V m c main_v6 : S1x288.Idx → EReal) (ix2 (0 : Fin 1) j) = m ((c : Thread nD τ).loc main_arg3) (ix1 j) := by
  rw [V_bqkv]
  refine shapeCast_apply _ _ (ix2 (0 : Fin 1) j) (ix1 j) ?_
  rw [Shape.rowMajor_val_one, Shape.rowMajor_val_two]
  show j.val = 0 * 288 + j.val
  omega

/-- The one row of the output projection's bias is the argument. -/
theorem V_bproj_apply (c : Dev nD) (o : Fin 96) :
    (V m c main_v7 : S1x96.Idx → EReal) (ix2 (0 : Fin 1) o) = m ((c : Thread nD τ).loc main_arg5) (ix1 o) := by
  rw [V_bproj]
  refine shapeCast_apply _ _ (ix2 (0 : Fin 1) o) (ix1 o) ?_
  rw [Shape.rowMajor_val_one, Shape.rowMajor_val_two]
  show o.val = 0 * 96 + o.val
  omega

/-! ## Each window's block at a point, read at an index -/

/-- Point `t`'s block of x is windows `64 t` to `64 t + 63` of the argument. -/
theorem iblk_x_apply (c : Dev nD) (t : Fin cfg0.N) (y : S64x49x96.Idx) (i : S4096x49x96.Idx)
    (h0 : (i 0).val = 64 * t.val + (y 0).val) (h1 : (i 1).val = (y 1).val) (h2 : (i 2).val = (y 2).val) :
    (iblk m c 0 t : Vec Ideal S64x49x96 .f32) y = m ((c : Thread nD τ).loc main_arg0) i := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 64 + 1 * (y 0).val = (i 0).val; rw [e0, h0]; omega
  | ⟨1, _⟩ => show win0_0.index t (1 : Fin 3) * 49 + 1 * (y 1).val = (i 1).val; rw [e1, h1]; omega
  | ⟨2, _⟩ => show win0_0.index t (2 : Fin 3) * 96 + 1 * (y 2).val = (i 2).val; rw [e2, h2]; omega

/-- Every point's block of the mask is the whole mask argument. -/
theorem iblk_mask_apply (c : Dev nD) (t : Fin cfg0.N) (y : S64x49x49.Idx) :
    (iblk m c 1 t : Vec Ideal S64x49x49 .f32) y = m ((c : Thread nD τ).loc main_arg1) y := by
  obtain ⟨-, -, -, e0, e1, e2, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 64 + 1 * (y 0).val = (y 0).val; rw [e0]; omega
  | ⟨1, _⟩ => show win0_1.index t (1 : Fin 3) * 49 + 1 * (y 1).val = (y 1).val; rw [e1]; omega
  | ⟨2, _⟩ => show win0_1.index t (2 : Fin 3) * 49 + 1 * (y 2).val = (y 2).val; rw [e2]; omega

/-- Every point's block of the fused projection's weights holds the argument in each of its 64 copies. -/
theorem iblk_wqkv_apply (c : Dev nD) (t : Fin cfg0.N) (w : Fin 64) (j : Fin 288) (k : Fin 96) :
    (iblk m c 2 t : Vec Ideal S64x288x96 .bf16) (ix3 w j k) = m ((c : Thread nD τ).loc main_arg2) (ix2 j k) := by
  obtain ⟨-, -, -, -, -, -, e0, e1, e2, -⟩ := idx_facts t
  unfold iblk
  rw [View.read_apply]
  show V m c main_v2 _ = _
  refine (congrArg (V m c main_v2 : S64x288x96.Idx → EReal) ?_).trans (V_wqkv_apply m c w j k)
  funext a
  apply Fin.ext
  match a with
  | ⟨0, _⟩ => show win0_2.index t (0 : Fin 3) * 64 + 1 * w.val = w.val; rw [e0]; omega
  | ⟨1, _⟩ => show win0_2.index t (1 : Fin 3) * 288 + 1 * j.val = j.val; rw [e1]; omega
  | ⟨2, _⟩ => show win0_2.index t (2 : Fin 3) * 96 + 1 * k.val = k.val; rw [e2]; omega

/-- Every point's block of the fused projection's bias is the argument as one row. -/
theorem iblk_bqkv_apply (c : Dev nD) (t : Fin cfg0.N) (j : Fin 288) :
    (iblk m c 3 t : Vec Ideal S1x288 .f32) (ix2 (0 : Fin 1) j) = m ((c : Thread nD τ).loc main_arg3) (ix1 j) := by
  obtain ⟨-, -, -, -, -, -, -, -, -, e0, e1, -⟩ := idx_facts t
  unfold iblk
  rw [View.read_apply]
  show V m c main_v6 _ = _
  refine (congrArg (V m c main_v6 : S1x288.Idx → EReal) ?_).trans (V_bqkv_apply m c j)
  funext a
  apply Fin.ext
  match a with
  | ⟨0, _⟩ => show win0_3.index t (0 : Fin 2) * 1 + 1 * 0 = 0; rw [e0]
  | ⟨1, _⟩ => show win0_3.index t (1 : Fin 2) * 288 + 1 * j.val = j.val; rw [e1]; omega

/-- Every point's block of the output projection's weights holds the argument in each of its 64 copies. -/
theorem iblk_wproj_apply (c : Dev nD) (t : Fin cfg0.N) (w : Fin 64) (o : Fin 96) (k : Fin 96) :
    (iblk m c 4 t : Vec Ideal S64x96x96 .bf16) (ix3 w o k) = m ((c : Thread nD τ).loc main_arg4) (ix2 o k) := by
  obtain ⟨-, -, -, -, -, -, -, -, -, -, -, e0, e1, e2, -⟩ := idx_facts t
  unfold iblk
  rw [View.read_apply]
  show V m c main_v5 _ = _
  refine (congrArg (V m c main_v5 : S64x96x96.Idx → EReal) ?_).trans (V_wproj_apply m c w o k)
  funext a
  apply Fin.ext
  match a with
  | ⟨0, _⟩ => show win0_4.index t (0 : Fin 3) * 64 + 1 * w.val = w.val; rw [e0]; omega
  | ⟨1, _⟩ => show win0_4.index t (1 : Fin 3) * 96 + 1 * o.val = o.val; rw [e1]; omega
  | ⟨2, _⟩ => show win0_4.index t (2 : Fin 3) * 96 + 1 * k.val = k.val; rw [e2]; omega

/-- Every point's block of the output projection's bias is the argument as one row. -/
theorem iblk_bproj_apply (c : Dev nD) (t : Fin cfg0.N) (o : Fin 96) :
    (iblk m c 5 t : Vec Ideal S1x96 .f32) (ix2 (0 : Fin 1) o) = m ((c : Thread nD τ).loc main_arg5) (ix1 o) := by
  obtain ⟨-, -, -, -, -, -, -, -, -, -, -, -, -, -, e0, e1, -⟩ := idx_facts t
  unfold iblk
  rw [View.read_apply]
  show V m c main_v7 _ = _
  refine (congrArg (V m c main_v7 : S1x96.Idx → EReal) ?_).trans (V_bproj_apply m c o)
  funext a
  apply Fin.ext
  match a with
  | ⟨0, _⟩ => show win0_5.index t (0 : Fin 2) * 1 + 1 * 0 = 0; rw [e0]
  | ⟨1, _⟩ => show win0_5.index t (1 : Fin 2) * 96 + 1 * o.val = o.val; rw [e1]; omega

/-! ## The result's block at a point -/

/-- Index `y` of point `t`'s result block lies in window `64 t + y 0` of the result array. -/
theorem emb_res_0 (t : Fin cfg0.N) (y : S64x49x96.Idx) :
    ((((cfg0.win 6).blk t).view.emb y : S4096x49x96.Idx) 0).val = 64 * t.val + (y 0).val := by
  obtain ⟨-, -, -, -, -, -, -, -, -, -, -, -, -, -, -, -, e0, -, -⟩ := idx_facts t
  show win0_6.index t (0 : Fin 3) * 64 + 1 * (y 0).val = _
  rw [e0]; omega

/-- Index `y` of point `t`'s result block names the same token in the result array. -/
theorem emb_res_1 (t : Fin cfg0.N) (y : S64x49x96.Idx) :
    (((cfg0.win 6).blk t).view.emb y : S4096x49x96.Idx) 1 = y 1 := by
  obtain ⟨-, -, -, -, -, -, -, -, -, -, -, -, -, -, -, -, -, e1, -⟩ := idx_facts t
  apply Fin.ext
  show win0_6.index t (1 : Fin 3) * 49 + 1 * (y 1).val = _
  rw [e1]; omega

/-- Index `y` of point `t`'s result block names the same channel in the result array. -/
theorem emb_res_2 (t : Fin cfg0.N) (y : S64x49x96.Idx) :
    (((cfg0.win 6).blk t).view.emb y : S4096x49x96.Idx) 2 = y 2 := by
  obtain ⟨-, -, -, -, -, -, -, -, -, -, -, -, -, -, -, -, -, -, e2⟩ := idx_facts t
  apply Fin.ext
  show win0_6.index t (2 : Fin 3) * 96 + 1 * (y 2).val = _
  rw [e2]; omega

/-- The mask of the window under block index `y` of point `t` is mask `y 0`: `(64 t + y 0) mod 64`. -/
theorem mk_emb_res (t : Fin cfg0.N) (y : S64x49x96.Idx) :
    mk ((((cfg0.win 6).blk t).view.emb y : S4096x49x96.Idx) 0) = y 0 := by
  have hy : (y 0).val < 64 := (y 0).isLt
  apply Fin.ext
  show ((((cfg0.win 6).blk t).view.emb y : S4096x49x96.Idx) 0).val % 64 = (y 0).val
  rw [emb_res_0]; omega

/-! ## What one point computes -/

/-- The body's value at block index `y` is the window attention at array index `i`, whenever the six blocks at
    window `y 0` hold what the six arrays hold for window `i 0`, and `i` names the same token and channel as `y`. -/
theorem point_eq (x0 : Vec Ideal S64x49x96 .f32) (x1 : Vec Ideal S64x49x49 .f32) (x2 : Vec Ideal S64x288x96 .bf16)
    (x3 : Vec Ideal S1x288 .f32) (x4 : Vec Ideal S64x96x96 .bf16) (x5 : Vec Ideal S1x96 .f32)
    (X : S4096x49x96.Idx → EReal) (Mk : S64x49x49.Idx → EReal) (Wq : S288x96.Idx → EReal) (bq : S288.Idx → EReal)
    (Pw : S96x96.Idx → EReal) (pb : S96.Idx → EReal) (y : S64x49x96.Idx) (i : S4096x49x96.Idx)
    (h0 : ∀ n k, x0 (ix3 (y 0) n k) = X (ix3 (i 0) n k))
    (h1 : ∀ n k, x1 (ix3 (y 0) n k) = Mk (ix3 (mk (i 0)) n k))
    (h2 : ∀ j k, x2 (ix3 (y 0) j k) = Wq (ix2 j k))
    (h3 : ∀ j, x3 (ix2 (0 : Fin 1) j) = bq (ix1 j))
    (h4 : ∀ o k, x4 (ix3 (y 0) o k) = Pw (ix2 o k))
    (h5 : ∀ o, x5 (ix2 (0 : Fin 1) o) = pb (ix1 o))
    (hi1 : i 1 = y 1) (hi2 : i 2 = y 2) :
    k0_pay1 (F := Ideal) (k0_pay6 (k0_pay2 x0 x2 x3) x1 (k0_pay3 x0 x2 x3 x1) (k0_pay4 x0 x2 x3) (k0_pay5 x0 x2 x3) x4) x5 y
      = G X Mk Wq bq Pw pb i := by
  have hy : y = ix3 (y 0) (y 1) (y 2) := eq_ix3 y
  have hp := (congrArg (k0_pay1 (F := Ideal) (k0_pay6 (k0_pay2 x0 x2 x3) x1 (k0_pay3 x0 x2 x3 x1) (k0_pay4 x0 x2 x3) (k0_pay5 x0 x2 x3) x4) x5) hy).trans
    (BlockAttn.payload_apply x0 x1 x2 x3 x4 x5 (y 0) (y 1) (y 2))
  have e0 : (fun n k => x0 (ix3 (y 0) n k)) = fun n k => X (ix3 (i 0) n k) := funext fun n => funext fun k => h0 n k
  have e1 : (fun n k => x1 (ix3 (y 0) n k)) = fun n k => Mk (ix3 (mk (i 0)) n k) := funext fun n => funext fun k => h1 n k
  have e2 : (fun j k => x2 (ix3 (y 0) j k)) = fun j k => Wq (ix2 j k) := funext fun j => funext fun k => h2 j k
  have e3 : (fun j => x3 (ix2 (0 : Fin 1) j)) = fun j => bq (ix1 j) := funext fun j => h3 j
  have e4 : (fun o k => x4 (ix3 (y 0) o k)) = fun o k => Pw (ix2 o k) := funext fun o => funext fun k => h4 o k
  have e5 : (fun o => x5 (ix2 (0 : Fin 1) o)) = fun o => pb (ix1 o) := funext fun o => h5 o
  rw [hp, e0, e1, e2, e3, e4, e5]
  show out _ _ _ _ _ _ (y 1) (y 2) = out _ _ _ _ _ _ (i 1) (i 2)
  rw [hi1, hi2]

/-- WHAT POINT `t` WRITES BACK is block `t` of the window attention of the argument arrays. -/
theorem flushed_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  unfold Gen.out0_6
  rw [View.canon_unit_zero hz3]
  simp only [View.ld_unit_zero (S := S64x49x96) hz3, View.ld_unit_zero (S := S64x288x96) hz3,
    View.ld_unit_zero (S := S1x288) hz2, View.ld_unit_zero (S := S64x49x49) hz3,
    View.ld_unit_zero (S := S64x96x96) hz3, View.ld_unit_zero (S := S1x96) hz2]
  funext y
  have hmk := mk_emb_res t y
  exact point_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    y (((cfg0.win 6).blk t).view.emb y)
    (fun n k => iblk_x_apply m c t (ix3 (y 0) n k) (ix3 ((((cfg0.win 6).blk t).view.emb y : S4096x49x96.Idx) 0) n k) (emb_res_0 t y) rfl rfl)
    (fun n k => by rw [hmk]; exact iblk_mask_apply m c t (ix3 (y 0) n k))
    (fun j k => iblk_wqkv_apply m c t (y 0) j k)
    (fun j => iblk_bqkv_apply m c t j)
    (fun o k => iblk_wproj_apply m c t (y 0) o k)
    (fun o => iblk_bproj_apply m c t o)
    (emb_res_1 t y) (emb_res_2 t y)

/-! ## The blocks cover the array -/

/-- An index of the result array is in point `t`'s block iff each coordinate is in the block's range on its axis. -/
theorem mem_blk (t : Fin cfg0.N) (i : S4096x49x96.Idx) :
    i ∈ ((cfg0.win 6).blk t).view.set ↔ ∀ a : Fin 3, win0_6.index t a * S64x49x96.size a ≤ (i a).val
      ∧ (i a).val < win0_6.index t a * S64x49x96.size a + S64x49x96.size a := by
  show i ∈ ((View.whole main_v8).slice (win0_6.rect t)).set ↔ _
  rw [View.set_slice_whole, Rect.mem_set_unit]
  exact Iff.rfl

/-- Window `b` of the result array lies in the block of point `b / 64`. -/
theorem cover (i : S4096x49x96.Idx) :
    ∃ t : Fin cfg0.N, (cfg0.win 6).flush t = true ∧ i ∈ ((cfg0.win 6).blk t).view.set := by
  have hi0 : (i 0).val < 4096 := (i 0).isLt
  have hi1 : (i 1).val < 49 := (i 1).isLt
  have hi2 : (i 2).val < 96 := (i 2).isLt
  have hN : cfg0.N = 64 := N_0
  obtain ⟨t, ht⟩ : ∃ t : Fin cfg0.N, t.val = (i 0).val / 64 := ⟨⟨(i 0).val / 64, by rw [hN]; omega⟩, rfl⟩
  obtain ⟨-, -, -, -, -, -, -, -, -, -, -, -, -, -, -, -, e0, e1, e2⟩ := idx_facts t
  refine ⟨t, flush0_6 t, ?_⟩
  rw [mem_blk]
  intro a
  match a with
  | ⟨0, _⟩ =>
    show win0_6.index t (0 : Fin 3) * 64 ≤ (i 0).val ∧ (i 0).val < win0_6.index t (0 : Fin 3) * 64 + 64
    rw [e0, ht]; omega
  | ⟨1, _⟩ =>
    show win0_6.index t (1 : Fin 3) * 49 ≤ (i 1).val ∧ (i 1).val < win0_6.index t (1 : Fin 3) * 49 + 49
    rw [e1]; omega
  | ⟨2, _⟩ =>
    show win0_6.index t (2 : Fin 3) * 96 ≤ (i 2).val ∧ (i 2).val < win0_6.index t (2 : Fin 3) * 96 + 96
    rw [e2]; omega

/-- The result array after the run is the window attention of the argument arrays. -/
theorem final (c : Dev nD) :
    (dats m 0 c).arrAt 6 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 6
    (G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (fun t _ => flushed_eq m c t) cover

/-- The kernel's run, with the result named. -/
theorem run : θ_run defs (onTc (τ := τ) (main (F := Ideal))) ⟨m, fun _ => 0, ρ⟩ fun r => ∀ c : Dev nD,
      r.2.mem ((c : Thread nD τ).loc main_v8)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ArrayAttn

end
-- ==== Proof.RefAttention.lean ====
/-
  The jnp reference of the window attention, read index by index, is the window function `G`.

  The reference is a chain of array operations; each lemma below reads one named stage at explicit coordinates
  (window `b`, head `h`, tokens `n`, `m`, head coordinate `d`, channels `c`, `o`) in terms of the window's own data:
  the fused projection `Qw` (Σ_c X[n,c]·W[j,c] + bias[j]); its split into queries, keys and values per head (the
  reshape [288] = [3, 3, 32] and the transposition, by row-major arithmetic: 288-index `96 s + 32 h + d`); the scaled
  queries; the logits with the mask of window `b mod 64` (the reshape 4096 = 64 · 64 sends `b` to `(b / 64, b mod 64)`
  and back); the row maximum as a fold of `max` from minus infinity; the soft maximum; the weighted average of the
  values; the heads laid side by side (channel `c` is coordinate `c mod 32` of head `c / 32`); the output projection.
-/
import proofs.«116542_j20444044329734_1_alg».proof.Proof.Gen.ReferenceIdeal.Read
import proofs.«116542_j20444044329734_1_alg».proof.Proof.WindowAttention
import Idealize.ShloMosaic.Lib.ValueLayout
import Idealize.ShloMosaic.PureOps.Ideal.Laws

noncomputable section

namespace Cert.RefAttn

open Idealize.ShloMosaic Idealize.ShloMosaic.TcCoe Idealize.ShloMosaic.ValueIdx
open Cert.ReferenceIdeal Cert.ReferenceIdeal.Read Cert.WindowAttn

/-- Window `b`'s tokens, the fused projection's weights and bias, and the window's mask, as plain functions. -/
abbrev Xw (x0 : FVec Ideal S4096x49x96 .f32) (b : Fin 4096) : Fin 49 → Fin 96 → EReal := fun n c => x0 (ix3 b n c)
abbrev Ww (x2 : FVec Ideal S288x96 .f32) : Fin 288 → Fin 96 → EReal := fun j c => x2 (ix2 j c)
abbrev Bw (x3 : FVec Ideal S288 .f32) : Fin 288 → EReal := fun j => x3 (ix1 j)
abbrev Mw (x1 : FVec Ideal S64x49x49 .f32) (b : Fin 4096) : Fin 49 → Fin 49 → EReal := fun n m => x1 (ix3 (mk b) n m)

/-- The fused projection of window `b`. -/
abbrev Qw (x0 : FVec Ideal S4096x49x96 .f32) (x2 : FVec Ideal S288x96 .f32) (x3 : FVec Ideal S288 .f32) (b : Fin 4096) :
    Fin 49 → Fin 288 → EReal := qkv (Xw x0 b) (Ww x2) (Bw x3)

theorem lidx0 (b : Fin 4096) (n : Fin 49) (j : Fin 288) (k : Fin 96) : lidx_main_v0 (ix3 b n j) k = ix3 b n k :=
  funext fun a => by match a with | ⟨0, _⟩ => rfl | ⟨1, _⟩ => rfl | ⟨2, _⟩ => rfl
theorem ridx0 (b : Fin 4096) (n : Fin 49) (j : Fin 288) (k : Fin 96) : ridx_main_v0 (ix3 b n j) k = ix2 j k :=
  funext fun a => by match a with | ⟨0, _⟩ => rfl | ⟨1, _⟩ => rfl
theorem idx12 (b : Fin 4096) (n : Fin 49) (j : Fin 288) : idx_main_v1 (idx_main_v2 (ix3 b n j)) = ix1 j :=
  funext fun a => by match a with | ⟨0, _⟩ => rfl

/-- The projection stage: token `n` of window `b` times the weights, plus the bias. -/
theorem v3_apply (x0 : FVec Ideal S4096x49x96 .f32) (x2 : FVec Ideal S288x96 .f32) (x3 : FVec Ideal S288 .f32)
    (b : Fin 4096) (n : Fin 49) (j : Fin 288) :
    val_main_v3 (F := Ideal) x0 x2 x3 (ix3 b n j) = Qw x0 x2 x3 b n j := by
  rw [val_main_v3_apply, val_main_v0_apply, val_main_v2_apply, val_main_v1_apply, idx12]
  simp only [lidx0, ridx0]
  rfl

/-- Where group `s` (queries, keys, values), head `h`, coordinate `d` sits among the 288 projected numbers. -/
def sel (s : Fin 3) (h : Fin 3) (d : Fin 32) : Fin 288 :=
  ⟨96 * s.val + 32 * h.val + d.val, by have := s.isLt; have := h.isLt; have := d.isLt; omega⟩

theorem sel_zero (h : Fin 3) (d : Fin 32) : sel 0 h d = qi h d :=
  Fin.ext (by show 96 * 0 + 32 * h.val + d.val = 32 * h.val + d.val; omega)
theorem sel_one (h : Fin 3) (d : Fin 32) : sel 1 h d = ki h d :=
  Fin.ext (by show 96 * 1 + 32 * h.val + d.val = 96 + 32 * h.val + d.val; omega)
theorem sel_two (h : Fin 3) (d : Fin 32) : sel 2 h d = vi h d :=
  Fin.ext (by show 96 * 2 + 32 * h.val + d.val = 192 + 32 * h.val + d.val; omega)

/-- The split of the 288 projected numbers into [3, 3, 32] followed by the transposition to [group, window, head,
    token, coordinate]: row-major arithmetic. -/
theorem idx45 (s : Fin 3) (b : Fin 4096) (h : Fin 3) (n : Fin 49) (d : Fin 32) :
    idx_main_v4 (idx_main_v5 (ix5 s b h n d)) = ix3 b n (sel s h d) :=
  funext fun a => Fin.ext (by
    have hs := s.isLt; have hb := b.isLt; have hh := h.isLt; have hn := n.isLt; have hd := d.isLt
    match a with
    | ⟨0, _⟩ => show ((((b.val * 49 + n.val) * 3 + s.val) * 3 + h.val) * 32 + d.val) / 14112 = b.val; omega
    | ⟨1, _⟩ => show ((((b.val * 49 + n.val) * 3 + s.val) * 3 + h.val) * 32 + d.val) / 288 % 49 = n.val; omega
    | ⟨2, _⟩ => show ((((b.val * 49 + n.val) * 3 + s.val) * 3 + h.val) * 32 + d.val) % 288 = 96 * s.val + 32 * h.val + d.val; omega)

theorem v5_apply (x0 : FVec Ideal S4096x49x96 .f32) (x2 : FVec Ideal S288x96 .f32) (x3 : FVec Ideal S288 .f32)
    (s : Fin 3) (b : Fin 4096) (h : Fin 3) (n : Fin 49) (d : Fin 32) :
    val_main_v5 (F := Ideal) x0 x2 x3 (ix5 s b h n d) = Qw x0 x2 x3 b n (sel s h d) := by
  rw [val_main_v5_apply, val_main_v4_apply, idx45, v3_apply]

/-- Dropping the leading unit axis of a [1, 4096, 3, 49, 32] slice. -/
theorem idx7 (b : Fin 4096) (h : Fin 3) (n : Fin 49) (d : Fin 32) :
    idx_main_v7 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 3 + h.val) * 49 + n.val) * 32 + d.val) / 4704 % 4096 = b.val; omega
    | ⟨2, _⟩ => show (((b.val * 3 + h.val) * 49 + n.val) * 32 + d.val) / 1568 % 3 = h.val; omega
    | ⟨3, _⟩ => show (((b.val * 3 + h.val) * 49 + n.val) * 32 + d.val) / 32 % 49 = n.val; omega
    | ⟨4, _⟩ => show (((b.val * 3 + h.val) * 49 + n.val) * 32 + d.val) % 32 = d.val; omega)

theorem idx6 (b : Fin 4096) (h : Fin 3) (n : Fin 49) (d : Fin 32) :
    idx_main_v6 (ix5 (0 : Fin 1) b h n d) = ix5 (0 : Fin 3) b h n d :=
  funext fun a => by match a with | ⟨0, _⟩ => rfl | ⟨1, _⟩ => rfl | ⟨2, _⟩ => rfl | ⟨3, _⟩ => rfl | ⟨4, _⟩ => rfl
theorem idx8 (b : Fin 4096) (h : Fin 3) (n : Fin 49) (d : Fin 32) :
    idx_main_v8 (ix5 (0 : Fin 1) b h n d) = ix5 (1 : Fin 3) b h n d :=
  funext fun a => by match a with | ⟨0, _⟩ => rfl | ⟨1, _⟩ => rfl | ⟨2, _⟩ => rfl | ⟨3, _⟩ => rfl | ⟨4, _⟩ => rfl
theorem idx10 (b : Fin 4096) (h : Fin 3) (n : Fin 49) (d : Fin 32) :
    idx_main_v10 (ix5 (0 : Fin 1) b h n d) = ix5 (2 : Fin 3) b h n d :=
  funext fun a => by match a with | ⟨0, _⟩ => rfl | ⟨1, _⟩ => rfl | ⟨2, _⟩ => rfl | ⟨3, _⟩ => rfl | ⟨4, _⟩ => rfl

/-- The queries, keys and values of head `h`. -/
theorem v7_apply (x0 : FVec Ideal S4096x49x96 .f32) (x2 : FVec Ideal S288x96 .f32) (x3 : FVec Ideal S288 .f32)
    (b : Fin 4096) (h : Fin 3) (n : Fin 49) (d : Fin 32) :
    val_main_v7 (F := Ideal) x0 x2 x3 (ix4 b h n d) = Qw x0 x2 x3 b n (qi h d) := by
  rw [val_main_v7_apply, idx7, val_main_v6_apply, idx6, v5_apply, sel_zero]
theorem v9_apply (x0 : FVec Ideal S4096x49x96 .f32) (x2 : FVec Ideal S288x96 .f32) (x3 : FVec Ideal S288 .f32)
    (b : Fin 4096) (h : Fin 3) (n : Fin 49) (d : Fin 32) :
    val_main_v9 (F := Ideal) x0 x2 x3 (ix4 b h n d) = Qw x0 x2 x3 b n (ki h d) := by
  rw [val_main_v9_apply, show idx_main_v9 (ix4 b h n d) = ix5 (0 : Fin 1) b h n d from idx7 b h n d,
    val_main_v8_apply, idx8, v5_apply, sel_one]
theorem v11_apply (x0 : FVec Ideal S4096x49x96 .f32) (x2 : FVec Ideal S288x96 .f32) (x3 : FVec Ideal S288 .f32)
    (b : Fin 4096) (h : Fin 3) (n : Fin 49) (d : Fin 32) :
    val_main_v11 (F := Ideal) x0 x2 x3 (ix4 b h n d) = Qw x0 x2 x3 b n (vi h d) := by
  rw [val_main_v11_apply, show idx_main_v11 (ix4 b h n d) = ix5 (0 : Fin 1) b h n d from idx7 b h n d,
    val_main_v10_apply, idx10, v5_apply, sel_two]

/-- The scaled queries. -/
theorem v13_apply (x0 : FVec Ideal S4096x49x96 .f32) (x2 : FVec Ideal S288x96 .f32) (x3 : FVec Ideal S288 .f32)
    (b : Fin 4096) (h : Fin 3) (n : Fin 49) (d : Fin 32) :
    val_main_v13 (F := Ideal) x0 x2 x3 (ix4 b h n d) = Qw x0 x2 x3 b n (qi h d) * scale := by
  rw [val_main_v13_apply, v7_apply, val_main_v12_apply, val_main_cst_apply]
  rfl

theorem lidx14 (b : Fin 4096) (h : Fin 3) (n m : Fin 49) (k : Fin 32) : lidx_main_v14 (ix4 b h n m) k = ix4 b h n k :=
  funext fun a => by match a with | ⟨0, _⟩ => rfl | ⟨1, _⟩ => rfl | ⟨2, _⟩ => rfl | ⟨3, _⟩ => rfl
theorem ridx14 (b : Fin 4096) (h : Fin 3) (n m : Fin 49) (k : Fin 32) : ridx_main_v14 (ix4 b h n m) k = ix4 b h m k :=
  funext fun a => by match a with | ⟨0, _⟩ => rfl | ⟨1, _⟩ => rfl | ⟨2, _⟩ => rfl | ⟨3, _⟩ => rfl

/-- The scaled queries against the keys. -/
theorem v14_apply (x0 : FVec Ideal S4096x49x96 .f32) (x2 : FVec Ideal S288x96 .f32) (x3 : FVec Ideal S288 .f32)
    (b : Fin 4096) (h : Fin 3) (n m : Fin 49) :
    val_main_v14 (F := Ideal) x0 x2 x3 (ix4 b h n m)
      = ∑ d : Fin 32, (Qw x0 x2 x3 b n (qi h d) * scale) * Qw x0 x2 x3 b m (ki h d) := by
  rw [val_main_v14_apply]
  simp only [lidx14, ridx14, v13_apply, v9_apply]

/-- The window `b = 64 g + w` in the [64, 64] arrangement the mask is added in. -/
def gq (b : Fin 4096) : Fin 64 := ⟨b.val / 64, by have := b.isLt; omega⟩

theorem idx19 (b : Fin 4096) (h : Fin 3) (n m : Fin 49) : idx_main_v19 (ix4 b h n m) = ix5 (gq b) (mk b) h n m :=
  funext fun a => Fin.ext (by
    have hb := b.isLt; have hh := h.isLt; have hn := n.isLt; have hm := m.isLt
    match a with
    | ⟨0, _⟩ => show (((b.val * 3 + h.val) * 49 + n.val) * 49 + m.val) / 460992 = b.val / 64; omega
    | ⟨1, _⟩ => show (((b.val * 3 + h.val) * 49 + n.val) * 49 + m.val) / 7203 % 64 = b.val % 64; omega
    | ⟨2, _⟩ => show (((b.val * 3 + h.val) * 49 + n.val) * 49 + m.val) / 2401 % 3 = h.val; omega
    | ⟨3, _⟩ => show (((b.val * 3 + h.val) * 49 + n.val) * 49 + m.val) / 49 % 49 = n.val; omega
    | ⟨4, _⟩ => show (((b.val * 3 + h.val) * 49 + n.val) * 49 + m.val) % 49 = m.val; omega)

theorem idx15 (b : Fin 4096) (h : Fin 3) (n m : Fin 49) : idx_main_v15 (ix5 (gq b) (mk b) h n m) = ix4 b h n m :=
  funext fun a => Fin.ext (by
    have hb := b.isLt; have hh := h.isLt; have hn := n.isLt; have hm := m.isLt
    match a with
    | ⟨0, _⟩ => show (((((b.val / 64) * 64 + b.val % 64) * 3 + h.val) * 49 + n.val) * 49 + m.val) / 7203 = b.val; omega
    | ⟨1, _⟩ => show (((((b.val / 64) * 64 + b.val % 64) * 3 + h.val) * 49 + n.val) * 49 + m.val) / 2401 % 3 = h.val; omega
    | ⟨2, _⟩ => show (((((b.val / 64) * 64 + b.val % 64) * 3 + h.val) * 49 + n.val) * 49 + m.val) / 49 % 49 = n.val; omega
    | ⟨3, _⟩ => show (((((b.val / 64) * 64 + b.val % 64) * 3 + h.val) * 49 + n.val) * 49 + m.val) % 49 = m.val; omega)

theorem idx1617 (g w : Fin 64) (h : Fin 3) (n m : Fin 49) : idx_main_v16 (idx_main_v17 (ix5 g w h n m)) = ix3 w n m :=
  funext fun a => by match a with | ⟨0, _⟩ => rfl | ⟨1, _⟩ => rfl | ⟨2, _⟩ => rfl

/-- The logits of head `h`: the mask of window `b mod 64` added. -/
theorem v19_apply (x0 : FVec Ideal S4096x49x96 .f32) (x1 : FVec Ideal S64x49x49 .f32) (x2 : FVec Ideal S288x96 .f32)
    (x3 : FVec Ideal S288 .f32) (b : Fin 4096) (h : Fin 3) (n m : Fin 49) :
    val_main_v19 (F := Ideal) x0 x1 x2 x3 (ix4 b h n m) = logit (Qw x0 x2 x3 b) (Mw x1 b) h n m := by
  rw [val_main_v19_apply, idx19, val_main_v18_apply, val_main_v15_apply, idx15, v14_apply,
    val_main_v17_apply, val_main_v16_apply, idx1617]
  rfl

theorem red3 : S4096x3x49x49.Reduces [3] S4096x3x49 := by decide

/-- The logit row's index over the key token `m`. -/
theorem lift3 (b : Fin 4096) (h : Fin 3) (n m : Fin 49) : red3.lift (ix3 b h n) m = ix4 b h n m :=
  funext fun a => Fin.ext (by
    match a with | ⟨0, _⟩ => rfl | ⟨1, _⟩ => rfl | ⟨2, _⟩ => rfl | ⟨3, _⟩ => rfl)

/-- The row maximum: the fold of `max` from minus infinity over the key tokens. -/
theorem v20_apply (x0 : FVec Ideal S4096x49x96 .f32) (x1 : FVec Ideal S64x49x49 .f32) (x2 : FVec Ideal S288x96 .f32)
    (x3 : FVec Ideal S288 .f32) (b : Fin 4096) (h : Fin 3) (n : Fin 49) :
    val_main_v20 (F := Ideal) x0 x1 x2 x3 (ix3 b h n)
      = Finset.univ.fold max ninf (logit (Qw x0 x2 x3 b) (Mw x1 b) h n) := by
  unfold val_main_v20
  refine (Host.reduce_eq_fold_single (h := red3) _ _ _ _ _ _).trans ?_
  have hl : (val_main_v19 (F := Ideal) x0 x1 x2 x3 ∘ red3.lift (ix3 b h n))
      = logit (Qw x0 x2 x3 b) (Mw x1 b) h n :=
    funext fun m => (congrArg (val_main_v19 (F := Ideal) x0 x1 x2 x3) (lift3 b h n m)).trans
      (v19_apply x0 x1 x2 x3 b h n m)
  rw [hl]
  rfl

/-- The row maximum, taken once more against minus infinity. -/
theorem v22_apply (x0 : FVec Ideal S4096x49x96 .f32) (x1 : FVec Ideal S64x49x49 .f32) (x2 : FVec Ideal S288x96 .f32)
    (x3 : FVec Ideal S288 .f32) (b : Fin 4096) (h : Fin 3) (n : Fin 49) :
    val_main_v22 (F := Ideal) x0 x1 x2 x3 (ix3 b h n) = rowmax (logit (Qw x0 x2 x3 b) (Mw x1 b) h n) := by
  rw [val_main_v22_apply, v20_apply, val_main_v21_apply, val_main_cst_1_apply]
  rfl

theorem idx2324 (b : Fin 4096) (h : Fin 3) (n m : Fin 49) : idx_main_v23 (idx_main_v24 (ix4 b h n m)) = ix3 b h n :=
  funext fun a => by match a with | ⟨0, _⟩ => rfl | ⟨1, _⟩ => rfl | ⟨2, _⟩ => rfl
theorem idx2829 (b : Fin 4096) (h : Fin 3) (n m : Fin 49) : idx_main_v28 (idx_main_v29 (ix4 b h n m)) = ix3 b h n :=
  funext fun a => by match a with | ⟨0, _⟩ => rfl | ⟨1, _⟩ => rfl | ⟨2, _⟩ => rfl
theorem idx27 (b : Fin 4096) (h : Fin 3) (n k : Fin 49) : idx_main_v27 (ix3 b h n) k = ix4 b h n k :=
  funext fun a => by match a with | ⟨0, _⟩ => rfl | ⟨1, _⟩ => rfl | ⟨2, _⟩ => rfl | ⟨3, _⟩ => rfl

/-- The exponentials of the logits less the row maximum. -/
theorem v26_apply (x0 : FVec Ideal S4096x49x96 .f32) (x1 : FVec Ideal S64x49x49 .f32) (x2 : FVec Ideal S288x96 .f32)
    (x3 : FVec Ideal S288 .f32) (b : Fin 4096) (h : Fin 3) (n m : Fin 49) :
    val_main_v26 (F := Ideal) x0 x1 x2 x3 (ix4 b h n m)
      = Ideal.exp (logit (Qw x0 x2 x3 b) (Mw x1 b) h n m - rowmax (logit (Qw x0 x2 x3 b) (Mw x1 b) h n)) := by
  rw [val_main_v26_apply, val_main_v25_apply, v19_apply, val_main_v24_apply, val_main_v23_apply, idx2324, v22_apply]
  rfl

/-- Their sum over the key tokens. -/
theorem v27_apply (x0 : FVec Ideal S4096x49x96 .f32) (x1 : FVec Ideal S64x49x49 .f32) (x2 : FVec Ideal S288x96 .f32)
    (x3 : FVec Ideal S288 .f32) (b : Fin 4096) (h : Fin 3) (n : Fin 49) :
    val_main_v27 (F := Ideal) x0 x1 x2 x3 (ix3 b h n)
      = ∑ k : Fin 49, Ideal.exp (logit (Qw x0 x2 x3 b) (Mw x1 b) h n k - rowmax (logit (Qw x0 x2 x3 b) (Mw x1 b) h n)) := by
  rw [val_main_v27_apply, val_main_cst_2_apply]
  simp only [idx27, v26_apply]
  rw [Ideal.ofBits_def, Ideal.ofBits_zero_f32, zero_add]

/-- The soft maximum of the logit row. -/
theorem v30_apply (x0 : FVec Ideal S4096x49x96 .f32) (x1 : FVec Ideal S64x49x49 .f32) (x2 : FVec Ideal S288x96 .f32)
    (x3 : FVec Ideal S288 .f32) (b : Fin 4096) (h : Fin 3) (n m : Fin 49) :
    val_main_v30 (F := Ideal) x0 x1 x2 x3 (ix4 b h n m) = prob (logit (Qw x0 x2 x3 b) (Mw x1 b) h n) m := by
  rw [val_main_v30_apply, v26_apply, val_main_v29_apply, val_main_v28_apply, idx2829, v27_apply]
  rfl

theorem lidx31 (b : Fin 4096) (h : Fin 3) (n : Fin 49) (d : Fin 32) (k : Fin 49) :
    lidx_main_v31 (ix4 b h n d) k = ix4 b h n k :=
  funext fun a => by match a with | ⟨0, _⟩ => rfl | ⟨1, _⟩ => rfl | ⟨2, _⟩ => rfl | ⟨3, _⟩ => rfl
theorem ridx31 (b : Fin 4096) (h : Fin 3) (n : Fin 49) (d : Fin 32) (k : Fin 49) :
    ridx_main_v31 (ix4 b h n d) k = ix4 b h k d :=
  funext fun a => by match a with | ⟨0, _⟩ => rfl | ⟨1, _⟩ => rfl | ⟨2, _⟩ => rfl | ⟨3, _⟩ => rfl

/-- The weights' average of the values. -/
theorem v31_apply (x0 : FVec Ideal S4096x49x96 .f32) (x1 : FVec Ideal S64x49x49 .f32) (x2 : FVec Ideal S288x96 .f32)
    (x3 : FVec Ideal S288 .f32) (b : Fin 4096) (h : Fin 3) (n : Fin 49) (d : Fin 32) :
    val_main_v31 (F := Ideal) x0 x1 x2 x3 (ix4 b h n d) = ctx (Qw x0 x2 x3 b) (Mw x1 b) h n d := by
  rw [val_main_v31_apply]
  simp only [lidx31, ridx31, v30_apply, v11_apply]
  rfl

/-- The heads laid side by side: channel `c` of the 96 is coordinate `c mod 32` of head `c / 32`. -/
theorem idx3233 (b : Fin 4096) (n : Fin 49) (c : Fin 96) :
    idx_main_v32 (idx_main_v33 (ix3 b n c)) = ix4 b (hd c) n (dd c) :=
  funext fun a => Fin.ext (by
    have hb := b.isLt; have hn := n.isLt; have hc := c.isLt
    match a with
    | ⟨0, _⟩ => show ((b.val * 49 + n.val) * 96 + c.val) / 4704 = b.val; omega
    | ⟨1, _⟩ => show ((b.val * 49 + n.val) * 96 + c.val) / 32 % 3 = c.val / 32; omega
    | ⟨2, _⟩ => show ((b.val * 49 + n.val) * 96 + c.val) / 96 % 49 = n.val; omega
    | ⟨3, _⟩ => show ((b.val * 49 + n.val) * 96 + c.val) % 32 = c.val % 32; omega)

theorem v33_apply (x0 : FVec Ideal S4096x49x96 .f32) (x1 : FVec Ideal S64x49x49 .f32) (x2 : FVec Ideal S288x96 .f32)
    (x3 : FVec Ideal S288 .f32) (b : Fin 4096) (n : Fin 49) (c : Fin 96) :
    val_main_v33 (F := Ideal) x0 x1 x2 x3 (ix3 b n c) = ctx (Qw x0 x2 x3 b) (Mw x1 b) (hd c) n (dd c) := by
  rw [val_main_v33_apply, val_main_v32_apply, idx3233, v31_apply]

theorem lidx34 (b : Fin 4096) (n : Fin 49) (o k : Fin 96) : lidx_main_v34 (ix3 b n o) k = ix3 b n k :=
  funext fun a => by match a with | ⟨0, _⟩ => rfl | ⟨1, _⟩ => rfl | ⟨2, _⟩ => rfl
theorem ridx34 (b : Fin 4096) (n : Fin 49) (o k : Fin 96) : ridx_main_v34 (ix3 b n o) k = ix2 o k :=
  funext fun a => by match a with | ⟨0, _⟩ => rfl | ⟨1, _⟩ => rfl
theorem idx3536 (b : Fin 4096) (n : Fin 49) (o : Fin 96) : idx_main_v35 (idx_main_v36 (ix3 b n o)) = ix1 o :=
  funext fun a => by match a with | ⟨0, _⟩ => rfl

/-- The output projection and its bias: the whole window function at token `n`, channel `o`. -/
theorem v37_apply (x0 : FVec Ideal S4096x49x96 .f32) (x1 : FVec Ideal S64x49x49 .f32) (x2 : FVec Ideal S288x96 .f32)
    (x3 : FVec Ideal S288 .f32) (x4 : FVec Ideal S96x96 .f32) (x5 : FVec Ideal S96 .f32)
    (b : Fin 4096) (n : Fin 49) (o : Fin 96) :
    val_main_v37 (F := Ideal) x0 x1 x2 x3 x4 x5 (ix3 b n o)
      = out (Xw x0 b) (Mw x1 b) (Ww x2) (Bw x3) (fun o c => x4 (ix2 o c)) (fun o => x5 (ix1 o)) n o := by
  rw [val_main_v37_apply, val_main_v34_apply, val_main_v36_apply, val_main_v35_apply, idx3536]
  simp only [lidx34, ridx34, v33_apply]
  rfl

theorem ref_eq (x0 : FVec Ideal S4096x49x96 .f32) (x1 : FVec Ideal S64x49x49 .f32) (x2 : FVec Ideal S288x96 .f32)
    (x3 : FVec Ideal S288 .f32) (x4 : FVec Ideal S96x96 .f32) (x5 : FVec Ideal S96 .f32) :
    val_main_v37 (F := Ideal) x0 x1 x2 x3 x4 x5 = G x0 x1 x2 x3 x4 x5 := by
  funext i
  obtain ⟨b, n, o, rfl⟩ : ∃ (b : Fin 4096) (n : Fin 49) (o : Fin 96), i = ix3 b n o := ⟨i 0, i 1, i 2, eq_ix3 i⟩
  rw [v37_apply]
  rfl

end Cert.RefAttn

end
-- ==== Proof.lean ====
/-
  The certificate of a shifted-window attention kernel against its jnp reference, over the extended reals.

  Both programs compute, for each of 4096 windows of 49 tokens and 96 channels, the same function of the window's
  data (Proof/WindowAttention.lean, `out`): a fused projection to queries, keys and values, three heads of scaled
  scores with the window's mask added (window `b` uses mask `b mod 64`), a soft maximum along each row, the weighted
  values, the heads laid side by side, and an output projection with its bias.  The kernel works a block of 64
  windows per grid point with every matrix product batched over the block; the reference reshapes and transposes
  the whole array.  Index by index both are `G` of the argument arrays: the kernel's block payload read at an index
  (Proof/BlockAttention.lean over Proof/AttentionCore.lean and Proof/LibBatchOps.lean), the blocks assembled into the
  array (Proof/ArrayAttention.lean), and the reference's stages read one by one (Proof/RefAttention.lean).  No law
  of arithmetic beyond reading each operation at an index is used, so the precondition is never opened.
  The three frames are the generated ones; the kernel's idealization rewrote nothing.
-/
import proofs.«116542_j20444044329734_1_alg».proof.Defs
import proofs.«116542_j20444044329734_1_alg».proof.Proof.Gen.Kernel
import proofs.«116542_j20444044329734_1_alg».proof.Proof.Gen.Kernel.Skeleton
import proofs.«116542_j20444044329734_1_alg».proof.Proof.Gen.Kernel.Launch
import proofs.«116542_j20444044329734_1_alg».proof.Proof.Gen.Kernel.Points
import proofs.«116542_j20444044329734_1_alg».proof.Proof.Gen.Kernel.Frame
import proofs.«116542_j20444044329734_1_alg».proof.Proof.Gen.KernelIdeal
import proofs.«116542_j20444044329734_1_alg».proof.Proof.Gen.KernelIdeal.Skeleton
import proofs.«116542_j20444044329734_1_alg».proof.Proof.Gen.KernelIdeal.Launch
import proofs.«116542_j20444044329734_1_alg».proof.Proof.Gen.KernelIdeal.Points
import proofs.«116542_j20444044329734_1_alg».proof.Proof.Gen.KernelIdeal.Frame
import proofs.«116542_j20444044329734_1_alg».proof.Proof.Gen.ReferenceIdeal
import proofs.«116542_j20444044329734_1_alg».proof.Proof.Gen.Pre_finite_inputs
import proofs.«116542_j20444044329734_1_alg».proof.Proof.Gen.KernelIdeal.Value
import proofs.«116542_j20444044329734_1_alg».proof.Proof.Gen.ReferenceIdeal.Run
import proofs.«116542_j20444044329734_1_alg».proof.Proof.Gen.ReferenceIdeal.Read
import proofs.«116542_j20444044329734_1_alg».proof.Proof.WindowAttention
import proofs.«116542_j20444044329734_1_alg».proof.Proof.ArrayAttention
import proofs.«116542_j20444044329734_1_alg».proof.Proof.RefAttention
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the window attention `G` of arguments that agree. -/
theorem algebraic : Cert.algebraic_KernelIdeal_ReferenceIdeal := by
  intro m ρ m' ρ' _ hagree
  refine ⟨_, Cert.KernelIdeal.ArrayAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefAttn.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
